-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S1x80x300 : Shape := ⟨3, ![1, 80, 300]⟩
abbrev S80x80 : Shape := ⟨2, ![80, 80]⟩
abbrev S300x1024 : Shape := ⟨2, ![300, 1024]⟩
abbrev S8000x2048 : Shape := ⟨2, ![8000, 2048]⟩
abbrev S8000 : Shape := ⟨1, ![8000]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S1x80x300 : S_.BroadcastsInDim S1x80x300 (![] : Fin 0 → Fin S1x80x300.rank)
  reducesTo_S1x80x300_S_d0_1_2 : S1x80x300.ReducesTo [0, 1, 2] S_
  bcast_S_S80x80 : S_.BroadcastsInDim S80x80 (![] : Fin 0 → Fin S80x80.rank)
  reducesTo_S80x80_S_d0_1 : S80x80.ReducesTo [0, 1] S_
  bcast_S_S300x1024 : S_.BroadcastsInDim S300x1024 (![] : Fin 0 → Fin S300x1024.rank)
  reducesTo_S300x1024_S_d0_1 : S300x1024.ReducesTo [0, 1] S_
  bcast_S_S8000x2048 : S_.BroadcastsInDim S8000x2048 (![] : Fin 0 → Fin S8000x2048.rank)
  reducesTo_S8000x2048_S_d0_1 : S8000x2048.ReducesTo [0, 1] S_
  bcast_S_S8000 : S_.BroadcastsInDim S8000 (![] : Fin 0 → Fin S8000.rank)
  reducesTo_S8000_S_d0 : S8000.ReducesTo [0] S_

variable [Facts]

def fn_part2 {F : FTy → Type} [FloatOps F] (main_arg7 : FVec F S8000x2048 .f32) (main_arg8 : FVec F S8000 .f32) (main_v33 : IVec S_ 1) : IVec S_ 1 :=
  let main_v34 : FVec F S8000x2048 .f32 := Host.absf main_arg7
  let main_cst_12 : FVec F S_ .f32 := constant S_ .f32 0x7F800000#32
  let main_v35 : FVec F S8000x2048 .f32 := broadcastInDim S8000x2048 ![] bcast_S_S8000x2048 main_cst_12
  let main_v36 : IVec S8000x2048 1 := cmpf .olt main_v34 main_v35
  let main_c_13 : IVec S_ 1 := constantI S_ 1 1#1
  let main_v37 : IVec S_ 1 := (fun x v => Host.reduce IntOp.andi x v reducesTo_S8000x2048_S_d0_1 h_S_) main_v36 main_c_13
  let main_v38 : IVec S_ 1 := andi main_v33 main_v37
  let main_v39 : FVec F S8000 .f32 := Host.absf main_arg8
  let main_cst_14 : FVec F S_ .f32 := constant S_ .f32 0x7F800000#32
  let main_v40 : FVec F S8000 .f32 := broadcastInDim S8000 ![] bcast_S_S8000 main_cst_14
  let main_v41 : IVec S8000 1 := cmpf .olt main_v39 main_v40
  let main_c_15 : IVec S_ 1 := constantI S_ 1 1#1
  let main_v42 : IVec S_ 1 := (fun x v => Host.reduce IntOp.andi x v reducesTo_S8000_S_d0 h_S_) main_v41 main_c_15
  let main_v43 : IVec S_ 1 := andi main_v38 main_v42
  main_v43

def fn_part1 {F : FTy → Type} [FloatOps F] (main_arg4 : FVec F S1024x2048 .f32) (main_arg5 : FVec F S8000x2048 .f32) (main_arg6 : FVec F S8000 .f32) (main_arg7 : FVec F S8000x2048 .f32) (main_arg8 : FVec F S8000 .f32) (main_v13 : IVec S_ 1) (main_v16 : IVec S300x1024 1) : IVec S_ 1 :=
  let main_c_5 : IVec S_ 1 := constantI S_ 1 1#1
  let main_v17 : IVec S_ 1 := (fun x v => Host.reduce IntOp.andi x v reducesTo_S300x1024_S_d0_1 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S8000x2048 .f32 := Host.absf main_arg5
  let main_cst_8 : FVec F S_ .f32 := constant S_ .f32 0x7F800000#32
  let main_v25 : FVec F S8000x2048 .f32 := broadcastInDim S8000x2048 ![] bcast_S_S8000x2048 main_cst_8
  let main_v26 : IVec S8000x2048 1 := cmpf .olt main_v24 main_v25
  let main_c_9 : IVec S_ 1 := constantI S_ 1 1#1
  let main_v27 : IVec S_ 1 := (fun x v => Host.reduce IntOp.andi x v reducesTo_S8000x2048_S_d0_1 h_S_) main_v26 main_c_9
  let main_v28 : IVec S_ 1 := andi main_v23 main_v27
  let main_v29 : FVec F S8000 .f32 := Host.absf main_arg6
  let main_cst_10 : FVec F S_ .f32 := constant S_ .f32 0x7F800000#32
  let main_v30 : FVec F S8000 .f32 := broadcastInDim S8000 ![] bcast_S_S8000 main_cst_10
  let main_v31 : IVec S8000 1 := cmpf .olt main_v29 main_v30
  let main_c_11 : IVec S_ 1 := constantI S_ 1 1#1
  let main_v32 : IVec S_ 1 := (fun x v => Host.reduce IntOp.andi x v reducesTo_S8000_S_d0 h_S_) main_v31 main_c_11
  let main_v33 : IVec S_ 1 := andi main_v28 main_v32
  fn_part2 (F := F) main_arg7 main_arg8 main_v33

def fn {F : FTy → Type} [FloatOps F] (main_arg0 : FVec F S1024x2048 .f32) (main_arg1 : FVec F S1x80x300 .f32) (main_arg2 : FVec F S80x80 .f32) (main_arg3 : FVec F S300x1024 .f32) (main_arg4 : FVec F S1024x2048 .f32) (main_arg5 : FVec F S8000x2048 .f32) (main_arg6 : FVec F S8000 .f32) (main_arg7 : FVec F S8000x2048 .f32) (main_arg8 : FVec F S8000 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1x80x300 .f32 := Host.absf main_arg1
  let main_cst_0 : FVec F S_ .f32 := constant S_ .f32 0x7F800000#32
  let main_v5 : FVec F S1x80x300 .f32 := broadcastInDim S1x80x300 ![] bcast_S_S1x80x300 main_cst_0
  let main_v6 : IVec S1x80x300 1 := cmpf .olt main_v4 main_v5
  let main_c_1 : IVec S_ 1 := constantI S_ 1 1#1
  let main_v7 : IVec S_ 1 := (fun x v => Host.reduce IntOp.andi x v reducesTo_S1x80x300_S_d0_1_2 h_S_) main_v6 main_c_1
  let main_v8 : IVec S_ 1 := andi main_v3 main_v7
  let main_v9 : FVec F S80x80 .f32 := Host.absf main_arg2
  let main_cst_2 : FVec F S_ .f32 := constant S_ .f32 0x7F800000#32
  let main_v10 : FVec F S80x80 .f32 := broadcastInDim S80x80 ![] bcast_S_S80x80 main_cst_2
  let main_v11 : IVec S80x80 1 := cmpf .olt main_v9 main_v10
  let main_c_3 : IVec S_ 1 := constantI S_ 1 1#1
  let main_v12 : IVec S_ 1 := (fun x v => Host.reduce IntOp.andi x v reducesTo_S80x80_S_d0_1 h_S_) main_v11 main_c_3
  let main_v13 : IVec S_ 1 := andi main_v8 main_v12
  let main_v14 : FVec F S300x1024 .f32 := Host.absf main_arg3
  let main_cst_4 : FVec F S_ .f32 := constant S_ .f32 0x7F800000#32
  let main_v15 : FVec F S300x1024 .f32 := broadcastInDim S300x1024 ![] bcast_S_S300x1024 main_cst_4
  let main_v16 : IVec S300x1024 1 := cmpf .olt main_v14 main_v15
  fn_part1 (F := F) main_arg4 main_arg5 main_arg6 main_arg7 main_arg8 main_v13 main_v16
-- ==== Kernel.lean ====
abbrev S1024x2048 : Shape := ⟨2, ![1024, 2048]⟩
abbrev S1x80x300 : Shape := ⟨3, ![1, 80, 300]⟩
abbrev S80x80 : Shape := ⟨2, ![80, 80]⟩
abbrev S300x1024 : Shape := ⟨2, ![300, 1024]⟩
abbrev S8000x2048 : Shape := ⟨2, ![8000, 2048]⟩
abbrev S8000 : Shape := ⟨1, ![8000]⟩
abbrev S80x300 : Shape := ⟨2, ![80, 300]⟩
abbrev S_ : Shape := ⟨0, ![]⟩
abbrev S80 : Shape := ⟨1, ![80]⟩
abbrev S80x1 : Shape := ⟨2, ![80, 1]⟩
abbrev S1x80 : Shape := ⟨2, ![1, 80]⟩
abbrev S80x1024 : Shape := ⟨2, ![80, 1024]⟩
abbrev S80x2048 : Shape := ⟨2, ![80, 2048]⟩
abbrev S8064x2048 : Shape := ⟨2, ![8064, 2048]⟩
abbrev S8064 : Shape := ⟨1, ![8064]⟩
abbrev S1x8064 : Shape := ⟨2, ![1, 8064]⟩
abbrev S1024x80 : Shape := ⟨2, ![1024, 80]⟩
abbrev S512x2048 : Shape := ⟨2, ![512, 2048]⟩
abbrev S384x2048 : Shape := ⟨2, ![384, 2048]⟩
abbrev S1x384 : Shape := ⟨2, ![1, 384]⟩
abbrev S512x80 : Shape := ⟨2, ![512, 80]⟩
abbrev S2048x384 : Shape := ⟨2, ![2048, 384]⟩
abbrev S512x384 : Shape := ⟨2, ![512, 384]⟩
abbrev S80x384 : Shape := ⟨2, ![80, 384]⟩
abbrev S384x80 : Shape := ⟨2, ![384, 80]⟩

abbrev nBuf : Space → Nat
  | .hbm => 53
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1x80x300, .f32⟩
  | .hbm, ⟨2, _⟩ => ⟨S80x80, .f32⟩
  | .hbm, ⟨3, _⟩ => ⟨S300x1024, .f32⟩
  | .hbm, ⟨4, _⟩ => ⟨S1024x2048, .f32⟩
  | .hbm, ⟨5, _⟩ => ⟨S8000x2048, .f32⟩
  | .hbm, ⟨6, _⟩ => ⟨S8000, .f32⟩
  | .hbm, ⟨7, _⟩ => ⟨S8000x2048, .f32⟩
  | .hbm, ⟨8, _⟩ => ⟨S8000, .f32⟩
  | .hbm, ⟨9, _⟩ => ⟨S80x300, .f32⟩
  | .hbm, ⟨10, _⟩ => ⟨S_, .f32⟩
  | .hbm, ⟨11, _⟩ => ⟨S80, .f32⟩
  | .hbm, ⟨12, _⟩ => ⟨S_, .f32⟩
  | .hbm, ⟨13, _⟩ => ⟨S80, .f32⟩
  | .hbm, ⟨14, _⟩ => ⟨S80, .f32⟩
  | .hbm, ⟨15, _⟩ => ⟨S80x1, .f32⟩
  | .hbm, ⟨16, _⟩ => ⟨S80x80, .f32⟩
  | .hbm, ⟨17, _⟩ => ⟨S80x80, .f32⟩
  | .hbm, ⟨18, _⟩ => ⟨S80x80, .f32⟩
  | .hbm, ⟨19, _⟩ => ⟨S1x80, .f32⟩
  | .hbm, ⟨20, _⟩ => ⟨S80x80, .f32⟩
  | .hbm, ⟨21, _⟩ => ⟨S80x80, .f32⟩
  | .hbm, ⟨22, _⟩ => ⟨S80x1024, .f32⟩
  | .hbm, ⟨23, _⟩ => ⟨S80x1024, .f32⟩
  | .hbm, ⟨24, _⟩ => ⟨S_, .f32⟩
  | .hbm, ⟨25, _⟩ => ⟨S_, .f32⟩
  | .hbm, ⟨26, _⟩ => ⟨S80x1024, .f32⟩
  | .hbm, ⟨27, _⟩ => ⟨S80x1024, .i1⟩
  | .hbm, ⟨28, _⟩ => ⟨S_, .f32⟩
  | .hbm, ⟨29, _⟩ => ⟨S80x1024, .f32⟩
  | .hbm, ⟨30, _⟩ => ⟨S80x1024, .f32⟩
  | .hbm, ⟨31, _⟩ => ⟨S80x1024, .f32⟩
  | .hbm, ⟨32, _⟩ => ⟨S80x2048, .f32⟩
  | .hbm, ⟨33, _⟩ => ⟨S80x2048, .f32⟩
  | .hbm, ⟨34, _⟩ => ⟨S_, .i32⟩
  | .hbm, ⟨35, _⟩ => ⟨S_, .f32⟩
  | .hbm, ⟨36, _⟩ => ⟨S8064x2048, .f32⟩
  | .hbm, ⟨37, _⟩ => ⟨S_, .i32⟩
  | .hbm, ⟨38, _⟩ => ⟨S_, .f32⟩
  | .hbm, ⟨39, _⟩ => ⟨S8064, .f32⟩
  | .hbm, ⟨40, _⟩ => ⟨S_, .i32⟩
  | .hbm, ⟨41, _⟩ => ⟨S_, .f32⟩
  | .hbm, ⟨42, _⟩ => ⟨S8064x2048, .f32⟩
  | .hbm, ⟨43, _⟩ => ⟨S_, .i32⟩
  | .hbm, ⟨44, _⟩ => ⟨S_, .f32⟩
  | .hbm, ⟨45, _⟩ => ⟨S8064, .f32⟩
  | .hbm, ⟨46, _⟩ => ⟨S1024x2048, .bf16⟩
  | .hbm, ⟨47, _⟩ => ⟨S80x2048, .bf16⟩
  | .hbm, ⟨48, _⟩ => ⟨S8064x2048, .bf16⟩
  | .hbm, ⟨49, _⟩ => ⟨S8064x2048, .bf16⟩
  | .hbm, ⟨50, _⟩ => ⟨S1x8064, .f32⟩
  | .hbm, ⟨51, _⟩ => ⟨S1x8064, .f32⟩
  | .hbm, ⟨52, _⟩ => ⟨S1024x80, .f32⟩
  | .local _ .vmem, ⟨0, _⟩ => ⟨S512x2048, .bf16⟩
  | .local _ .vmem, ⟨1, _⟩ => ⟨S512x2048, .bf16⟩
  | .local _ .vmem, ⟨2, _⟩ => ⟨S80x2048, .bf16⟩
  | .local _ .vmem, ⟨3, _⟩ => ⟨S384x2048, .bf16⟩
  | .local _ .vmem, ⟨4, _⟩ => ⟨S384x2048, .bf16⟩
  | .local _ .vmem, ⟨5, _⟩ => ⟨S1x384, .f32⟩
  | .local _ .vmem, ⟨6, _⟩ => ⟨S1x384, .f32⟩
  | .local _ .vmem, ⟨7, _⟩ => ⟨S384x2048, .bf16⟩
  | .local _ .vmem, ⟨8, _⟩ => ⟨S384x2048, .bf16⟩
  | .local _ .vmem, ⟨9, _⟩ => ⟨S1x384, .f32⟩
  | .local _ .vmem, ⟨10, _⟩ => ⟨S1x384, .f32⟩
  | .local _ .vmem, ⟨11, _⟩ => ⟨S512x80, .f32⟩
  | .local _ .vmem, ⟨12, _⟩ => ⟨S512x80, .f32⟩
  | .local _ .vmem, ⟨13, _⟩ => ⟨S512x80, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_call1_v0 : Ref sig .tc := ⟨.hbm, 35, rfl⟩
abbrev main_v16 : Ref sig .tc := ⟨.hbm, 36, rfl⟩
abbrev main_c_2 : Ref sig .tc := ⟨.hbm, 37, rfl⟩
abbrev main_call2_v0 : Ref sig .tc := ⟨.hbm, 38, rfl⟩
abbrev main_v17 : Ref sig .tc := ⟨.hbm, 39, rfl⟩
abbrev main_c_3 : Ref sig .tc := ⟨.hbm, 40, rfl⟩
abbrev main_call3_v0 : Ref sig .tc := ⟨.hbm, 41, rfl⟩
abbrev main_v18 : Ref sig .tc := ⟨.hbm, 42, rfl⟩
abbrev main_c_4 : Ref sig .tc := ⟨.hbm, 43, rfl⟩
abbrev main_call4_v0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 21], ![false, false]⟩

def k0_cond2 (i : grid0.Coords) : BitVec 1 :=
  let arg1 : BitVec 32 := BitVec.ofNat 32 (i 1).val
  let c20_i32 : BitVec 32 := 20#32
  let v32 : BitVec 1 := Scalar.cmpi .eq arg1 c20_i32
  let v33 : BitVec 32 := Scalar.extui v32
  let c0_i32_18 : BitVec 32 := 0#32
  let v34 : BitVec 1 := Scalar.cmpi .ne v33 c0_i32_18
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S80x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S384x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x80 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S1x80x300_S80x300 : S1x80x300.ShapeCasts S80x300
  reducesTo_S80x80_S80_d1 : S80x80.ReducesTo [1] S80
  h_S_ : 0 < S_.numel
  bcast_S_S80 : S_.BroadcastsInDim S80 (![] : Fin 0 → Fin S80.rank)
  bcast_S80_S80x1_0 : S80.BroadcastsInDim S80x1 (![0] : Fin 1 → Fin S80x1.rank)
  transposes_S80x80_S80x80_1_0 : S80x80.Transposes [1, 0] S80x80
  bcast_S80x1_S80x80_0_1 : S80x1.BroadcastsInDim S80x80 (![0, 1] : Fin 2 → Fin S80x80.rank)
  bcast_S80_S1x80_1 : S80.BroadcastsInDim S1x80 (![1] : Fin 1 → Fin S1x80.rank)
  bcast_S1x80_S80x80_0_1 : S1x80.BroadcastsInDim S80x80 (![0, 1] : Fin 2 → Fin S80x80.rank)
  bcast_S_S80x1024 : S_.BroadcastsInDim S80x1024 (![] : Fin 0 → Fin S80x1024.rank)
  pads_S8000x2048_S8064x2048_0640_000 : S8000x2048.Pads (![0, 0] : Fin 2 → Nat) ![64, 0] ![0, 0] S8064x2048
  pads_S8000_S8064_0640 : S8000.Pads (![0] : Fin 1 → Nat) ![64] ![0] S8064
  bitsLt_bf16_f32 : FTy.bits .bf16 < FTy.bits .f32
  shapeCasts_S8064_S1x8064 : S8064.ShapeCasts S1x8064
  inb_S512x80_S512x80_0_0 : ∀ a, (![0, 0] : Fin 2 → Nat) a + S512x80.size a ≤ S512x80.size a
  h_S512x80 : 0 < S512x80.numel
  shapeCasts_S512x80_S512x80 : S512x80.ShapeCasts S512x80
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S384x2048_S384x2048_0_0 : ∀ a, (![0, 0] : Fin 2 → Nat) a + S384x2048.size a ≤ S384x2048.size a
  h_S384x2048 : 0 < S384x2048.numel
  shapeCasts_S384x2048_S384x2048 : S384x2048.ShapeCasts S384x2048
  transposes_S384x2048_p1_0_S2048x384 : S384x2048.Transposes [1, 0] S2048x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  inb_S80x2048_S80x2048_0_0 : ∀ a, (![0, 0] : Fin 2 → Nat) a + S80x2048.size a ≤ S80x2048.size a
  h_S80x2048 : 0 < S80x2048.numel
  shapeCasts_S80x2048_S80x2048 : S80x2048.ShapeCasts S80x2048
  broadcasts_S1x384_S80x384 : S1x384.Broadcasts S80x384
  transposes_S80x384_p1_0_S384x80 : S80x384.Transposes [1, 0] S384x80
  dot_S80x300_S300x1024_S80x1024_1_0_0_1_n_n_wf : DotDims.WF S80x300 S300x1024 S80x1024 [1] [0] [0] [1] [] []
  dot_S80x80_S80x1024_S80x1024_1_0_0_1_n_n_wf : DotDims.WF S80x80 S80x1024 S80x1024 [1] [0] [0] [1] [] []
  dot_S80x1024_S1024x2048_S80x2048_1_0_0_1_n_n_wf : DotDims.WF S80x1024 S1024x2048 S80x2048 [1] [0] [0] [1] [] []
  dot_S80x80_S80x2048_S80x2048_1_0_0_1_n_n_wf : DotDims.WF S80x80 S80x2048 S80x2048 [1] [0] [0] [1] [] []
  dot_S512x2048_S2048x384_S512x384_1_0_0_1_n_n_wf : DotDims.WF S512x2048 S2048x384 S512x384 [1] [0] [0] [1] [] []
  dot_S80x2048_S2048x384_S80x384_1_0_0_1_n_n_wf : DotDims.WF S80x2048 S2048x384 S80x384 [1] [0] [0] [1] [] []
  dot_S512x384_S384x80_S512x80_1_0_0_1_n_n_wf : DotDims.WF S512x384 S384x80 S512x80 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S1024x2048.size a
  hwx0_0 : ∀ i : grid0.Coords, EltTy.bits .bf16 = 32 ∨ (Rect.block (s := S1024x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S80x2048.size a ≤ S80x2048.size a
  hwx0_1 : ∀ i : grid0.Coords, EltTy.bits .bf16 = 32 ∨ (Rect.block (s := S80x2048) S80x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S384x2048.size a ≤ S8064x2048.size a
  hwx0_2 : ∀ i : grid0.Coords, EltTy.bits .bf16 = 32 ∨ (Rect.block (s := S8064x2048) S384x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x384.size a ≤ S1x8064.size a
  hwx0_3 : ∀ i : grid0.Coords, EltTy.bits .f32 = 32 ∨ (Rect.block (s := S1x8064) S1x384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S384x2048.size a ≤ S8064x2048.size a
  hwx0_4 : ∀ i : grid0.Coords, EltTy.bits .bf16 = 32 ∨ (Rect.block (s := S8064x2048) S384x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x8064.size a
  hwx0_5 : ∀ i : grid0.Coords, EltTy.bits .f32 = 32 ∨ (Rect.block (s := S1x8064) S1x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x80.size a ≤ S1024x80.size a
  hwx0_6 : ∀ i : grid0.Coords, EltTy.bits .f32 = 32 ∨ (Rect.block (s := S1024x80) S512x80.size (cc0_transform_6 i) (hinb0_6 i)).WholeWords (EltTy.packing .f32)

variable [Facts₀]

def dot_S80x300_S300x1024_S80x1024_1_0_0_1_n_n : DotDims S80x300 S300x1024 S80x1024 where
  lhsContracting := [1]
  rhsContracting := [0]
  lhsNonContracting := [0]
  rhsNonContracting := [1]
  lhsBatch := []
  rhsBatch := []
  wf := dot_S80x300_S300x1024_S80x1024_1_0_0_1_n_n_wf
def dot_S80x80_S80x1024_S80x1024_1_0_0_1_n_n : DotDims S80x80 S80x1024 S80x1024 where
  lhsContracting := [1]
  rhsContracting := [0]
  lhsNonContracting := [0]
  rhsNonContracting := [1]
  lhsBatch := []
  rhsBatch := []
  wf := dot_S80x80_S80x1024_S80x1024_1_0_0_1_n_n_wf
def dot_S80x1024_S1024x2048_S80x2048_1_0_0_1_n_n : DotDims S80x1024 S1024x2048 S80x2048 where
  lhsContracting := [1]
  rhsContracting := [0]
  lhsNonContracting := [0]
  rhsNonContracting := [1]
  lhsBatch := []
  rhsBatch := []
  wf := dot_S80x1024_S1024x2048_S80x2048_1_0_0_1_n_n_wf
def dot_S80x80_S80x2048_S80x2048_1_0_0_1_n_n : DotDims S80x80 S80x2048 S80x2048 where
  lhsContracting := [1]
  rhsContracting := [0]
  lhsNonContracting := [0]
  rhsNonContracting := [1]
  lhsBatch := []
  rhsBatch := []
  wf := dot_S80x80_S80x2048_S80x2048_1_0_0_1_n_n_wf
def dot_S512x2048_S2048x384_S512x384_1_0_0_1_n_n : DotDims S512x2048 S2048x384 S512x384 where
  lhsContracting := [1]
  rhsContracting := [0]
  lhsNonContracting := [0]
  rhsNonContracting := [1]
  lhsBatch := []
  rhsBatch := []
  wf := dot_S512x2048_S2048x384_S512x384_1_0_0_1_n_n_wf
def dot_S80x2048_S2048x384_S80x384_1_0_0_1_n_n : DotDims S80x2048 S2048x384 S80x384 where
  lhsContracting := [1]
  rhsContracting := [0]
  lhsNonContracting := [0]
  rhsNonContracting := [1]
  lhsBatch := []
  rhsBatch := []
  wf := dot_S80x2048_S2048x384_S80x384_1_0_0_1_n_n_wf
def dot_S512x384_S384x80_S512x80_1_0_0_1_n_n : DotDims S512x384 S384x80 S512x80 where
  lhsContracting := [1]
  rhsContracting := [0]
  lhsNonContracting := [0]
  rhsNonContracting := [1]
  lhsBatch := []
  rhsBatch := []
  wf := dot_S512x384_S384x80_S512x80_1_0_0_1_n_n_wf

abbrev win0_0 : Pipeline.Window sig grid0 :=
  Pipeline.Window.ofSpec (Memref.whole main_v20) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S80x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S384x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S384x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x384.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26) S512x80.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1024x2048 : Shape := ⟨2, ![1024, 2048]⟩
abbrev S1x80x300 : Shape := ⟨3, ![1, 80, 300]⟩
abbrev S80x80 : Shape := ⟨2, ![80, 80]⟩
abbrev S300x1024 : Shape := ⟨2, ![300, 1024]⟩
abbrev S8000x2048 : Shape := ⟨2, ![8000, 2048]⟩
abbrev S8000 : Shape := ⟨1, ![8000]⟩
abbrev S80x300 : Shape := ⟨2, ![80, 300]⟩
abbrev S_ : Shape := ⟨0, ![]⟩
abbrev S80 : Shape := ⟨1, ![80]⟩
abbrev S80x1 : Shape := ⟨2, ![80, 1]⟩
abbrev S1x80 : Shape := ⟨2, ![1, 80]⟩
abbrev S80x1024 : Shape := ⟨2, ![80, 1024]⟩
abbrev S80x2048 : Shape := ⟨2, ![80, 2048]⟩
abbrev S2048x8000 : Shape := ⟨2, ![2048, 8000]⟩
abbrev S1024x8000 : Shape := ⟨2, ![1024, 8000]⟩
abbrev S1x8000 : Shape := ⟨2, ![1, 8000]⟩
abbrev S80x8000 : Shape := ⟨2, ![80, 8000]⟩
abbrev S8000x80 : Shape := ⟨2, ![8000, 80]⟩
abbrev S1024x80 : Shape := ⟨2, ![1024, 80]⟩

abbrev nBuf : Space → Nat
  | .hbm => 46
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x80x300, .f32⟩
  | .hbm, ⟨2, _⟩ => ⟨S80x80, .f32⟩
  | .hbm, ⟨3, _⟩ => ⟨S300x1024, .f32⟩
  | .hbm, ⟨4, _⟩ => ⟨S1024x2048, .f32⟩
  | .hbm, ⟨5, _⟩ => ⟨S8000x2048, .f32⟩
  | .hbm, ⟨6, _⟩ => ⟨S8000, .f32⟩
  | .hbm, ⟨7, _⟩ => ⟨S8000x2048, .f32⟩
  | .hbm, ⟨8, _⟩ => ⟨S8000, .f32⟩
  | .hbm, ⟨9, _⟩ => ⟨S80x300, .f32⟩
  | .hbm, ⟨10, _⟩ => ⟨S_, .f32⟩
  | .hbm, ⟨11, _⟩ => ⟨S80, .f32⟩
  | .hbm, ⟨12, _⟩ => ⟨S_, .f32⟩
  | .hbm, ⟨13, _⟩ => ⟨S80, .f32⟩
  | .hbm, ⟨14, _⟩ => ⟨S80, .f32⟩
  | .hbm, ⟨15, _⟩ => ⟨S80x1, .f32⟩
  | .hbm, ⟨16, _⟩ => ⟨S80x80, .f32⟩
  | .hbm, ⟨17, _⟩ => ⟨S80x80, .f32⟩
  | .hbm, ⟨18, _⟩ => ⟨S80x80, .f32⟩
  | .hbm, ⟨19, _⟩ => ⟨S1x80, .f32⟩
  | .hbm, ⟨20, _⟩ => ⟨S80x80, .f32⟩
  | .hbm, ⟨21, _⟩ => ⟨S80x80, .f32⟩
  | .hbm, ⟨22, _⟩ => ⟨S80x1024, .f32⟩
  | .hbm, ⟨23, _⟩ => ⟨S80x1024, .f32⟩
  | .hbm, ⟨24, _⟩ => ⟨S_, .f32⟩
  | .hbm, ⟨25, _⟩ => ⟨S_, .f32⟩
  | .hbm, ⟨26, _⟩ => ⟨S80x1024, .f32⟩
  | .hbm, ⟨27, _⟩ => ⟨S80x1024, .i1⟩
  | .hbm, ⟨28, _⟩ => ⟨S_, .f32⟩
  | .hbm, ⟨29, _⟩ => ⟨S80x1024, .f32⟩
  | .hbm, ⟨30, _⟩ => ⟨S80x1024, .f32⟩
  | .hbm, ⟨31, _⟩ => ⟨S80x1024, .f32⟩
  | .hbm, ⟨32, _⟩ => ⟨S80x2048, .f32⟩
  | .hbm, ⟨33, _⟩ => ⟨S80x2048, .f32⟩
  | .hbm, ⟨34, _⟩ => ⟨S2048x8000, .f32⟩
  | .hbm, ⟨35, _⟩ => ⟨S1024x8000, .f32⟩
  | .hbm, ⟨36, _⟩ => ⟨S1x8000, .f32⟩
  | .hbm, ⟨37, _⟩ => ⟨S1024x8000, .f32⟩
  | .hbm, ⟨38, _⟩ => ⟨S1024x8000, .f32⟩
  | .hbm, ⟨39, _⟩ => ⟨S2048x8000, .f32⟩
  | .hbm, ⟨40, _⟩ => ⟨S80x8000, .f32⟩
  | .hbm, ⟨41, _⟩ => ⟨S1x8000, .f32⟩
  | .hbm, ⟨42, _⟩ => ⟨S80x8000, .f32⟩
  | .hbm, ⟨43, _⟩ => ⟨S80x8000, .f32⟩
  | .hbm, ⟨44, _⟩ => ⟨S8000x80, .f32⟩
  | .hbm, ⟨45, _⟩ => ⟨S1024x80, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]

class Facts₀ : Prop where
  shapeCasts_S1x80x300_S80x300 : S1x80x300.ShapeCasts S80x300
  reducesTo_S80x80_S80_d1 : S80x80.ReducesTo [1] S80
  h_S_ : 0 < S_.numel
  bcast_S_S80 : S_.BroadcastsInDim S80 (![] : Fin 0 → Fin S80.rank)
  bcast_S80_S80x1_0 : S80.BroadcastsInDim S80x1 (![0] : Fin 1 → Fin S80x1.rank)
  transposes_S80x80_S80x80_1_0 : S80x80.Transposes [1, 0] S80x80
  bcast_S80x1_S80x80_0_1 : S80x1.BroadcastsInDim S80x80 (![0, 1] : Fin 2 → Fin S80x80.rank)
  bcast_S80_S1x80_1 : S80.BroadcastsInDim S1x80 (![1] : Fin 1 → Fin S1x80.rank)
  bcast_S1x80_S80x80_0_1 : S1x80.BroadcastsInDim S80x80 (![0, 1] : Fin 2 → Fin S80x80.rank)
  bcast_S_S80x1024 : S_.BroadcastsInDim S80x1024 (![] : Fin 0 → Fin S80x1024.rank)
  transposes_S8000x2048_S2048x8000_1_0 : S8000x2048.Transposes [1, 0] S2048x8000
  bcast_S8000_S1x8000_1 : S8000.BroadcastsInDim S1x8000 (![1] : Fin 1 → Fin S1x8000.rank)
  bcast_S1x8000_S1024x8000_0_1 : S1x8000.BroadcastsInDim S1024x8000 (![0, 1] : Fin 2 → Fin S1024x8000.rank)
  bcast_S1x8000_S80x8000_0_1 : S1x8000.BroadcastsInDim S80x8000 (![0, 1] : Fin 2 → Fin S80x8000.rank)
  transposes_S80x8000_S8000x80_1_0 : S80x8000.Transposes [1, 0] S8000x80
  dot_S80x300_S300x1024_S80x1024_1_0_0_1_n_n_wf : DotDims.WF S80x300 S300x1024 S80x1024 [1] [0] [0] [1] [] []
  dot_S80x80_S80x1024_S80x1024_1_0_0_1_n_n_wf : DotDims.WF S80x80 S80x1024 S80x1024 [1] [0] [0] [1] [] []
  dot_S80x1024_S1024x2048_S80x2048_1_0_0_1_n_n_wf : DotDims.WF S80x1024 S1024x2048 S80x2048 [1] [0] [0] [1] [] []
  dot_S80x80_S80x2048_S80x2048_1_0_0_1_n_n_wf : DotDims.WF S80x80 S80x2048 S80x2048 [1] [0] [0] [1] [] []
  dot_S1024x2048_S2048x8000_S1024x8000_1_0_0_1_n_n_wf : DotDims.WF S1024x2048 S2048x8000 S1024x8000 [1] [0] [0] [1] [] []
  dot_S80x2048_S2048x8000_S80x8000_1_0_0_1_n_n_wf : DotDims.WF S80x2048 S2048x8000 S80x8000 [1] [0] [0] [1] [] []
  dot_S1024x8000_S8000x80_S1024x80_1_0_0_1_n_n_wf : DotDims.WF S1024x8000 S8000x80 S1024x80 [1] [0] [0] [1] [] []

variable [Facts₀]

def dot_S80x300_S300x1024_S80x1024_1_0_0_1_n_n : DotDims S80x300 S300x1024 S80x1024 where
  lhsContracting := [1]
  rhsContracting := [0]
  lhsNonContracting := [0]
  rhsNonContracting := [1]
  lhsBatch := []
  rhsBatch := []
  wf := dot_S80x300_S300x1024_S80x1024_1_0_0_1_n_n_wf
def dot_S80x80_S80x1024_S80x1024_1_0_0_1_n_n : DotDims S80x80 S80x1024 S80x1024 where
  lhsContracting := [1]
  rhsContracting := [0]
  lhsNonContracting := [0]
  rhsNonContracting := [1]
  lhsBatch := []
  rhsBatch := []
  wf := dot_S80x80_S80x1024_S80x1024_1_0_0_1_n_n_wf
def dot_S80x1024_S1024x2048_S80x2048_1_0_0_1_n_n : DotDims S80x1024 S1024x2048 S80x2048 where
  lhsContracting := [1]
  rhsContracting := [0]
  lhsNonContracting := [0]
  rhsNonContracting := [1]
  lhsBatch := []
  rhsBatch := []
  wf := dot_S80x1024_S1024x2048_S80x2048_1_0_0_1_n_n_wf
def dot_S80x80_S80x2048_S80x2048_1_0_0_1_n_n : DotDims S80x80 S80x2048 S80x2048 where
  lhsContracting := [1]
  rhsContracting := [0]
  lhsNonContracting := [0]
  rhsNonContracting := [1]
  lhsBatch := []
  rhsBatch := []
  wf := dot_S80x80_S80x2048_S80x2048_1_0_0_1_n_n_wf
def dot_S1024x2048_S2048x8000_S1024x8000_1_0_0_1_n_n : DotDims S1024x2048 S2048x8000 S1024x8000 where
  lhsContracting := [1]
  rhsContracting := [0]
  lhsNonContracting := [0]
  rhsNonContracting := [1]
  lhsBatch := []
  rhsBatch := []
  wf := dot_S1024x2048_S2048x8000_S1024x8000_1_0_0_1_n_n_wf
def dot_S80x2048_S2048x8000_S80x8000_1_0_0_1_n_n : DotDims S80x2048 S2048x8000 S80x8000 where
  lhsContracting := [1]
  rhsContracting := [0]
  lhsNonContracting := [0]
  rhsNonContracting := [1]
  lhsBatch := []
  rhsBatch := []
  wf := dot_S80x2048_S2048x8000_S80x8000_1_0_0_1_n_n_wf
def dot_S1024x8000_S8000x80_S1024x80_1_0_0_1_n_n : DotDims S1024x8000 S8000x80 S1024x80 where
  lhsContracting := [1]
  rhsContracting := [0]
  lhsNonContracting := [0]
  rhsNonContracting := [1]
  lhsBatch := []
  rhsBatch := []
  wf := dot_S1024x8000_S8000x80_S1024x80_1_0_0_1_n_n_wf

class Facts : Prop extends Facts₀ where

variable [Facts]
-- ==== Proof.Accumulate.lean ====
/-
  The accumulator, point by point.

  The grid is two rows of 21 points; along a row the body keeps a [512, 80] accumulator in a scratch block. Read as
  values, the three control cases leave: at a row's first point the body's sum over the reset value; at a middle point
  the body's sum over what the point before left; at the last point the same, copied into the output block. So after
  point t the accumulator is the fold, from the row's first point, of "add this point's block product".
-/
import proofs.«173789_j7868380086329_1_alg».proof.Proof.Gen.KernelIdeal.Value
import Idealize.ShloMosaic.Lib.Pipeline.Value
import Idealize.ShloMosaic.Lib.Tactic

noncomputable section

namespace Cert.KernelIdeal.Accumulate

open Cert.KernelIdeal Cert.KernelIdeal.Gen Cert.KernelIdeal.Value Idealize.ShloMosaic Idealize.ShloMosaic.TcCoe Idealize.SL.Sem
open Idealize.ShloMosaic.Tactic
open Idealize.ShloMosaic.Pipeline (Dat)

variable {F : FTy → Type} [FloatOps F]

theorem hz : (![0, 0] : Fin 2 → Nat) = fun _ => 0 := funext fun a => by fin_cases a <;> rfl

/-! ## What each control case leaves behind, as values

At a point of the grid the body keeps the accumulator in a scratch block. In the first case of a row of points it
resets the accumulator and adds the point's block product; in the middle cases it adds the block product to what the
point before left; in the last case it does the same and copies the accumulator into the output block. -/

/-- The middle case leaves in the accumulator the body's sum over what the point before left. -/
theorem sout_B (c : Dev nD) (i : grid0.Coords) (arg2 : Memref sig .tc .vmem S512x2048 .bf16) (harg2 : arg2.IsWhole) (arg3 : Memref sig .tc .vmem S80x2048 .bf16) (harg3 : arg3.IsWhole) (arg4 : Memref sig .tc .vmem S384x2048 .bf16) (harg4 : arg4.IsWhole) (arg5 : Memref sig .tc .vmem S1x384 .f32) (harg5 : arg5.IsWhole) (arg6 : Memref sig .tc .vmem S384x2048 .bf16) (harg6 : arg6.IsWhole) (arg7 : Memref sig .tc .vmem S1x384 .f32) (harg7 : arg7.IsWhole) (arg8 : Memref sig .tc .vmem S512x80 .f32) (harg8 : arg8.IsWhole) (arg9 : Memref sig .tc .vmem S512x80 .f32) (harg9 : arg9.IsWhole) (hc0 : ¬cond0_0 i) (hc1 : ¬cond0_1 i)
    (x0 : Vec F S512x2048 .bf16) (x1 : Vec F S80x2048 .bf16) (x2 : Vec F S384x2048 .bf16) (x3 : Vec F S1x384 .f32) (x4 : Vec F S384x2048 .bf16) (x5 : Vec F S1x384 .f32) (xs0 : Vec F S512x80 .f32) :
    sout0_B_0 c i arg2 harg2 arg3 harg3 arg4 harg4 arg5 harg5 arg6 harg6 arg7 harg7 arg8 harg8 arg9 harg9 hc0 hc1 x0 x1 x2 x3 x4 x5 xs0 = k0_pay2 x0 x2 x3 x1 x4 x5 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg9.read_unread, View.ld_unit_zero (S := S512x2048) hz, View.ld_unit_zero (S := S80x2048) hz, View.ld_unit_zero (S := S384x2048) hz, View.ld_unit_zero (S := S1x384) hz, View.ld_unit_zero (S := S512x80) hz]

/-- The last case leaves the same in the accumulator. -/
theorem sout_C (c : Dev nD) (i : grid0.Coords) (arg2 : Memref sig .tc .vmem S512x2048 .bf16) (harg2 : arg2.IsWhole) (arg3 : Memref sig .tc .vmem S80x2048 .bf16) (harg3 : arg3.IsWhole) (arg4 : Memref sig .tc .vmem S384x2048 .bf16) (harg4 : arg4.IsWhole) (arg5 : Memref sig .tc .vmem S1x384 .f32) (harg5 : arg5.IsWhole) (arg6 : Memref sig .tc .vmem S384x2048 .bf16) (harg6 : arg6.IsWhole) (arg7 : Memref sig .tc .vmem S1x384 .f32) (harg7 : arg7.IsWhole) (arg8 : Memref sig .tc .vmem S512x80 .f32) (harg8 : arg8.IsWhole) (arg9 : Memref sig .tc .vmem S512x80 .f32) (harg9 : arg9.IsWhole) (hc0 : ¬cond0_0 i) (hc1 : cond0_1 i)
    (x0 : Vec F S512x2048 .bf16) (x1 : Vec F S80x2048 .bf16) (x2 : Vec F S384x2048 .bf16) (x3 : Vec F S1x384 .f32) (x4 : Vec F S384x2048 .bf16) (x5 : Vec F S1x384 .f32) (xs0 : Vec F S512x80 .f32) :
    sout0_C_0 c i arg2 harg2 arg3 harg3 arg4 harg4 arg5 harg5 arg6 harg6 arg7 harg7 arg8 harg8 arg9 harg9 hc0 hc1 x0 x1 x2 x3 x4 x5 xs0 = k0_pay2 x0 x2 x3 x1 x4 x5 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg9.read_unread, View.ld_unit_zero (S := S512x2048) hz, View.ld_unit_zero (S := S80x2048) hz, View.ld_unit_zero (S := S384x2048) hz, View.ld_unit_zero (S := S1x384) hz, View.ld_unit_zero (S := S512x80) hz]

/-- The last case copies the accumulator into the output block: the output holds the same sum. -/
theorem out_C (c : Dev nD) (i : grid0.Coords) (arg2 : Memref sig .tc .vmem S512x2048 .bf16) (harg2 : arg2.IsWhole) (arg3 : Memref sig .tc .vmem S80x2048 .bf16) (harg3 : arg3.IsWhole) (arg4 : Memref sig .tc .vmem S384x2048 .bf16) (harg4 : arg4.IsWhole) (arg5 : Memref sig .tc .vmem S1x384 .f32) (harg5 : arg5.IsWhole) (arg6 : Memref sig .tc .vmem S384x2048 .bf16) (harg6 : arg6.IsWhole) (arg7 : Memref sig .tc .vmem S1x384 .f32) (harg7 : arg7.IsWhole) (arg8 : Memref sig .tc .vmem S512x80 .f32) (harg8 : arg8.IsWhole) (arg9 : Memref sig .tc .vmem S512x80 .f32) (harg9 : arg9.IsWhole) (hc0 : ¬cond0_0 i) (hc1 : cond0_1 i)
    (x0 : Vec F S512x2048 .bf16) (x1 : Vec F S80x2048 .bf16) (x2 : Vec F S384x2048 .bf16) (x3 : Vec F S1x384 .f32) (x4 : Vec F S384x2048 .bf16) (x5 : Vec F S1x384 .f32) (xs0 : Vec F S512x80 .f32) :
    out0_C_6 c i arg2 harg2 arg3 harg3 arg4 harg4 arg5 harg5 arg6 harg6 arg7 harg7 arg8 harg8 arg9 harg9 hc0 hc1 x0 x1 x2 x3 x4 x5 xs0 = k0_pay2 x0 x2 x3 x1 x4 x5 xs0 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readCov_unit_zero (S := S512x80) _ hz, View.readAt_eq_ld, harg2.read_unread, harg3.read_unread, harg4.read_unread, harg5.read_unread, harg6.read_unread, harg7.read_unread, harg9.read_unread, View.ld_unit_zero (S := S512x2048) hz, View.ld_unit_zero (S := S80x2048) hz, View.ld_unit_zero (S := S384x2048) hz, View.ld_unit_zero (S := S1x384) hz, View.ld_unit_zero (S := S512x80) hz]

/-- The first case resets the accumulator and leaves the body's sum over the reset value. -/
theorem sout_A (c : Dev nD) (i : grid0.Coords) (arg2 : Memref sig .tc .vmem S512x2048 .bf16) (harg2 : arg2.IsWhole) (arg3 : Memref sig .tc .vmem S80x2048 .bf16) (harg3 : arg3.IsWhole) (arg4 : Memref sig .tc .vmem S384x2048 .bf16) (harg4 : arg4.IsWhole) (arg5 : Memref sig .tc .vmem S1x384 .f32) (harg5 : arg5.IsWhole) (arg6 : Memref sig .tc .vmem S384x2048 .bf16) (harg6 : arg6.IsWhole) (arg7 : Memref sig .tc .vmem S1x384 .f32) (harg7 : arg7.IsWhole) (arg8 : Memref sig .tc .vmem S512x80 .f32) (harg8 : arg8.IsWhole) (arg9 : Memref sig .tc .vmem S512x80 .f32) (harg9 : arg9.IsWhole) (hc0 : cond0_0 i) (hc1 : ¬cond0_1 i)
    (x0 : Vec F S512x2048 .bf16) (x1 : Vec F S80x2048 .bf16) (x2 : Vec F S384x2048 .bf16) (x3 : Vec F S1x384 .f32) (x4 : Vec F S384x2048 .bf16) (x5 : Vec F S1x384 .f32) :
    sout0_A_0 c i arg2 harg2 arg3 harg3 arg4 harg4 arg5 harg5 arg6 harg6 arg7 harg7 arg8 harg8 arg9 harg9 hc0 hc1 x0 x1 x2 x3 x4 x5 = k0_pay2 x0 x2 x3 x1 x4 x5 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S512x80) hz, View.readCov_unit_zero (S := S512x80) _ hz]
  simp only [View.readAt_eq_ld, harg2.read_unread, harg3.read_unread, harg4.read_unread, harg5.read_unread, harg6.read_unread, harg7.read_unread, harg9.read_unread, View.ld_unit_zero (S := S512x2048) hz, View.ld_unit_zero (S := S80x2048) hz, View.ld_unit_zero (S := S384x2048) hz, View.ld_unit_zero (S := S1x384) hz, View.ld_unit_zero (S := S512x80) hz]

end Cert.KernelIdeal.Accumulate

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.BlockProduct.lean ====
/-
  One grid point's arithmetic at an entry.

  The body's stored value at (p, q) is what the accumulator held there plus the product of the two projected blocks:
  the sum over the 384 projection coordinates j of the block of
      (sum_k feat[p,k] * wimg[j,k] + bimg[0,j]) * (sum_k x[q,k] * wcls[j,k] + bcls[0,j]).
  The changes of float format are the identity at the ideal values, each matrix-unit product into a zero accumulator is
  a plain sum, and the transposes swap the two coordinates.
-/
import proofs.«173789_j7868380086329_1_alg».proof.Proof.Gen.KernelIdeal.Skeleton
import proofs.«173789_j7868380086329_1_alg».proof.Proof.LibMatmul
import proofs.«173789_j7868380086329_1_alg».proof.Proof.LibLayout
import Idealize.ShloMosaic.Lib.ValueIdx
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.ValueIdx

/-- The product of a [512, 2048] block by a [2048, 384] block into a zero accumulator, at an entry. -/
theorem mm1 (l : FVec Ideal S512x2048 .bf16) (r : FVec Ideal S2048x384 .bf16) (p : Fin 512) (j : Fin 384) :
    matmul dot_S512x2048_S2048x384_S512x384_1_0_0_1_n_n none l r (constant (F := Ideal) S512x384 .f32 0x00000000#32) (ix2 p j)
      = ∑ k : Fin 2048, (l (ix2 p k) : EReal) * (r (ix2 k j) : EReal) :=
  Cert.Lib.Matmul.matmul_zero_apply (A := 512) (K := 2048) (C := 384) none l r p j

/-- The product of a [80, 2048] block by a [2048, 384] block into a zero accumulator, at an entry. -/
theorem mm2 (l : FVec Ideal S80x2048 .bf16) (r : FVec Ideal S2048x384 .bf16) (q : Fin 80) (j : Fin 384) :
    matmul dot_S80x2048_S2048x384_S80x384_1_0_0_1_n_n none l r (constant (F := Ideal) S80x384 .f32 0x00000000#32) (ix2 q j)
      = ∑ k : Fin 2048, (l (ix2 q k) : EReal) * (r (ix2 k j) : EReal) :=
  Cert.Lib.Matmul.matmul_zero_apply (A := 80) (K := 2048) (C := 384) none l r q j

/-- The product of a [512, 384] block by a [384, 80] block into a zero accumulator, at an entry. -/
theorem mm3 (l : FVec Ideal S512x384 .bf16) (r : FVec Ideal S384x80 .bf16) (p : Fin 512) (q : Fin 80) :
    matmul dot_S512x384_S384x80_S512x80_1_0_0_1_n_n none l r (constant (F := Ideal) S512x80 .f32 0x00000000#32) (ix2 p q)
      = ∑ j : Fin 384, (l (ix2 p j) : EReal) * (r (ix2 j q) : EReal) :=
  Cert.Lib.Matmul.matmul_zero_apply (A := 512) (K := 384) (C := 80) none l r p q

/-- The transposed weight block [2048, 384] at (k, j) is the weight block at (j, k). -/
theorem trW (w : FVec Ideal S384x2048 .bf16) (k : Fin 2048) (j : Fin 384) :
    transpose S2048x384 [1, 0] w transposes_S384x2048_p1_0_S2048x384 (ix2 k j) = w (ix2 j k) := by
  refine transpose_apply [1, 0] w transposes_S384x2048_p1_0_S2048x384 (ix2 k j) (ix2 j k) ?_
  intro b
  match b with
  | ⟨0, _⟩ => rfl
  | ⟨1, _⟩ => rfl

/-- The transposed class block [384, 80] at (j, q) is the class block at (q, j). -/
theorem trC (c : FVec Ideal S80x384 .bf16) (j : Fin 384) (q : Fin 80) :
    transpose S384x80 [1, 0] c transposes_S80x384_p1_0_S384x80 (ix2 j q) = c (ix2 q j) := by
  refine transpose_apply [1, 0] c transposes_S80x384_p1_0_S384x80 (ix2 j q) (ix2 q j) ?_
  intro b
  match b with
  | ⟨0, _⟩ => rfl
  | ⟨1, _⟩ => rfl

/-- The bias row broadcast to 512 rows, at (p, j), is the row's entry j. -/
theorem biasImg (b : FVec Ideal S1x384 .f32) (p : Fin 512) (j : Fin 384) :
    broadcastTo S512x384 b broadcasts_S1x384_S512x384 (ix2 p j) = b (ix2 (0 : Fin 1) j) := by
  refine broadcastTo_apply b broadcasts_S1x384_S512x384 (ix2 p j) (ix2 (0 : Fin 1) j) ?_
  intro a
  match a with
  | ⟨0, _⟩ => rfl
  | ⟨1, _⟩ => rfl

/-- The bias row broadcast to 80 rows, at (q, j), is the row's entry j. -/
theorem biasCls (b : FVec Ideal S1x384 .f32) (q : Fin 80) (j : Fin 384) :
    broadcastTo S80x384 b broadcasts_S1x384_S80x384 (ix2 q j) = b (ix2 (0 : Fin 1) j) := by
  refine broadcastTo_apply b broadcasts_S1x384_S80x384 (ix2 q j) (ix2 (0 : Fin 1) j) ?_
  intro a
  match a with
  | ⟨0, _⟩ => rfl
  | ⟨1, _⟩ => rfl

/-- The reset value of the accumulator is zero at every entry. -/
theorem pay1_apply (p : Fin 512) (q : Fin 80) : (k0_pay1 (F := Ideal)) (ix2 p q) = 0 := by
  unfold k0_pay1
  rw [shapeCast_self]
  exact Ideal.ofBits_zero_f32

/-- The stored value at (p, q): the accumulator's entry plus the block's 384 products of the two affine projections. -/
theorem pay2_apply (v3 : FVec Ideal S512x2048 .bf16) (v5 : FVec Ideal S384x2048 .bf16) (v9 : FVec Ideal S1x384 .f32)
    (v13 : FVec Ideal S80x2048 .bf16) (v15 : FVec Ideal S384x2048 .bf16) (v19 : FVec Ideal S1x384 .f32)
    (v23 : FVec Ideal S512x80 .f32) (p : Fin 512) (q : Fin 80) :
    k0_pay2 (F := Ideal) v3 v5 v9 v13 v15 v19 v23 (ix2 p q)
      = (v23 (ix2 p q) : EReal) + ∑ j : Fin 384,
          ((∑ k : Fin 2048, (v3 (ix2 p k) : EReal) * (v5 (ix2 j k) : EReal)) + (v9 (ix2 (0 : Fin 1) j) : EReal))
          * ((∑ k : Fin 2048, (v13 (ix2 q k) : EReal) * (v15 (ix2 j k) : EReal)) + (v19 (ix2 (0 : Fin 1) j) : EReal)) := by
  unfold k0_pay2
  dsimp only
  simp only [shapeCast_self]
  refine congrArg (fun x : EReal => (v23 (ix2 p q) : EReal) + x) ?_
  refine (mm3 _ _ p q).trans (Finset.sum_congr rfl fun j _ => ?_)
  refine congrArg₂ (fun x y : EReal => x * y) ?_ ((trC _ j q).trans ?_)
  · refine congrArg₂ (fun x y : EReal => x + y) ((mm1 _ _ p j).trans ?_) (biasImg v9 p j)
    exact Finset.sum_congr rfl fun k _ => congrArg (fun x : EReal => (v3 (ix2 p k) : EReal) * x) (trW v5 k j)
  · refine congrArg₂ (fun x y : EReal => x + y) ((mm2 _ _ q j).trans ?_) (biasCls v19 q j)
    exact Finset.sum_congr rfl fun k _ => congrArg (fun x : EReal => (v13 (ix2 q k) : EReal) * x) (trW v15 k j)

end Cert.KernelIdeal.BlockProduct

end
-- ==== Proof.Fold.lean ====
/-
  The accumulator after each point as a sum.

  Point n of the grid adds to the accumulator, at entry (p, q), the product of its two projected blocks: the sum over the
  block's 384 projection coordinates of (feature row p · image-table row + bias) · (class row q · class-table row +
  bias). The first point of a row of 21 starts from zero, every later one from what the point before left, so after
  point t the accumulator holds the sum of the addends of the row's points up to t; the last point of the row copies it
  into the output block.
-/
import proofs.«173789_j7868380086329_1_alg».proof.Proof.Accumulate
import proofs.«173789_j7868380086329_1_alg».proof.Proof.BlockProduct
import Idealize.ShloMosaic.Lib.ValueIdx

noncomputable section

namespace Cert.KernelIdeal.Fold

open Cert.KernelIdeal Cert.KernelIdeal.Gen Cert.KernelIdeal.Value Cert.KernelIdeal.Accumulate Cert.KernelIdeal.BlockProduct
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! The six input blocks of a point, each at its literal type. -/
abbrev blkFeat (c : Dev nD) (t : Fin cfg0.N) : FVec Ideal S512x2048 .bf16 := iblk m c 0 t
abbrev blkCls (c : Dev nD) (t : Fin cfg0.N) : FVec Ideal S80x2048 .bf16 := iblk m c 1 t
abbrev blkWimg (c : Dev nD) (t : Fin cfg0.N) : FVec Ideal S384x2048 .bf16 := iblk m c 2 t
abbrev blkBimg (c : Dev nD) (t : Fin cfg0.N) : FVec Ideal S1x384 .f32 := iblk m c 3 t
abbrev blkWcls (c : Dev nD) (t : Fin cfg0.N) : FVec Ideal S384x2048 .bf16 := iblk m c 4 t
abbrev blkBcls (c : Dev nD) (t : Fin cfg0.N) : FVec Ideal S1x384 .f32 := iblk m c 5 t

/-- One block's product of the two affine projections, at (p, q). -/
def blockProd (v3 : FVec Ideal S512x2048 .bf16) (v5 : FVec Ideal S384x2048 .bf16) (v9 : FVec Ideal S1x384 .f32)
    (v13 : FVec Ideal S80x2048 .bf16) (v15 : FVec Ideal S384x2048 .bf16) (v19 : FVec Ideal S1x384 .f32)
    (p : Fin 512) (q : Fin 80) : EReal :=
  ∑ j : Fin 384,
    ((∑ k : Fin 2048, (v3 (ix2 p k) : EReal) * (v5 (ix2 j k) : EReal)) + (v9 (ix2 (0 : Fin 1) j) : EReal))
    * ((∑ k : Fin 2048, (v13 (ix2 q k) : EReal) * (v15 (ix2 j k) : EReal)) + (v19 (ix2 (0 : Fin 1) j) : EReal))

/-- The body's stored value at an entry is the accumulator's entry plus the block product. -/
theorem pay2_blockProd (v3 : FVec Ideal S512x2048 .bf16) (v5 : FVec Ideal S384x2048 .bf16) (v9 : FVec Ideal S1x384 .f32)
    (v13 : FVec Ideal S80x2048 .bf16) (v15 : FVec Ideal S384x2048 .bf16) (v19 : FVec Ideal S1x384 .f32)
    (v23 : FVec Ideal S512x80 .f32) (i : S512x80.Idx) :
    k0_pay2 (F := Ideal) v3 v5 v9 v13 v15 v19 v23 i = (v23 i : EReal) + blockProd v3 v5 v9 v13 v15 v19 (i 0) (i 1) := by
  obtain ⟨p, q, rfl⟩ : ∃ (p : Fin 512) (q : Fin 80), i = ix2 p q := ⟨i 0, i 1, eq_ix2 i⟩
  exact pay2_apply v3 v5 v9 v13 v15 v19 v23 p q

/-- The addend of point n at an entry (zero past the grid, where it is never used). -/
def addend (c : Dev nD) (n : ℕ) (i : S512x80.Idx) : EReal :=
  if h : n < cfg0.N then
    blockProd (blkFeat m c ⟨n, h⟩) (blkWimg m c ⟨n, h⟩) (blkBimg m c ⟨n, h⟩) (blkCls m c ⟨n, h⟩) (blkWcls m c ⟨n, h⟩)
      (blkBcls m c ⟨n, h⟩) (i 0) (i 1)
  else 0

theorem addend_of_lt (c : Dev nD) (n : ℕ) (h : n < cfg0.N) (i : S512x80.Idx) :
    addend m c n i = blockProd (blkFeat m c ⟨n, h⟩) (blkWimg m c ⟨n, h⟩) (blkBimg m c ⟨n, h⟩) (blkCls m c ⟨n, h⟩)
      (blkWcls m c ⟨n, h⟩) (blkBcls m c ⟨n, h⟩) (i 0) (i 1) := by
  unfold addend; rw [dif_pos h]

/-- At the first point of a row the accumulator is reset: it ends at zero plus the point's addend. -/
theorem reset_apply (c : Dev nD) (n : ℕ) (h : n < cfg0.N) (h0 : n % 21 = 0) (acc : Vec Ideal S512x80 .f32) (i : S512x80.Idx) :
    (scAt0_0 m c n h acc i : EReal) = 0 + addend m c n i := by
  have h1 : ¬ n % 21 = 20 := by omega
  unfold scAt0_0
  rw [dif_pos h0, dif_neg h1]
  refine (congrFun (sout_A (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N))) i).trans ?_
  refine (pay2_blockProd _ _ _ _ _ _ _ i).trans ?_
  rw [addend_of_lt m c n h i]
  obtain ⟨p, q, rfl⟩ : ∃ (p : Fin 512) (q : Fin 80), i = ix2 p q := ⟨i 0, i 1, eq_ix2 i⟩
  rw [pay1_apply p q]

/-- At every other point of a row the accumulator gains the point's addend. -/
theorem step_apply (c : Dev nD) (n : ℕ) (h : n < cfg0.N) (h0 : ¬ n % 21 = 0) (acc : Vec Ideal S512x80 .f32) (i : S512x80.Idx) :
    (scAt0_0 m c n h acc i : EReal) = (acc i : EReal) + addend m c n i := by
  unfold scAt0_0
  rw [dif_neg h0]
  by_cases h1 : n % 21 = 20
  · rw [dif_pos h1]
    refine (congrFun (sout_C (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) acc) i).trans ?_
    refine (pay2_blockProd _ _ _ _ _ _ _ i).trans ?_
    rw [addend_of_lt m c n h i]
  · rw [dif_neg h1]
    refine (congrFun (sout_B (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) acc) i).trans ?_
    refine (pay2_blockProd _ _ _ _ _ _ _ i).trans ?_
    rw [addend_of_lt m c n h i]

/-- THE ACCUMULATOR AFTER POINT t: the sum of the addends of its row's points up to t. -/
theorem acc_apply (c : Dev nD) (t : Fin cfg0.N) (i : S512x80.Idx) :
    ((outsAt0 m c t.val t.isLt).2 i : EReal)
      = ∑ s ∈ Finset.range (t.val % 21 + 1), addend m c (21 * (t.val / 21) + s) i := by
  have hN : t.val < 42 := lt_of_lt_of_eq t.isLt (show cfg0.N = 42 from N_0)
  rw [soutsAt0_0_eq m c t]
  have key := Pipeline.accAt_add_apply (N := cfg0.N) (ι := S512x80.Idx) (β := EReal)
    (fun n h => scAt0_0 m c n h (VS0_0.read (Elt Ideal) VS0_0.junk)) (scAt0_0 m c) (fun _ => 0) (addend m c)
    (21 * (t.val / 21)) 20
    (fun h i => reset_apply m c _ h (Nat.mul_mod_right 21 _) _ i)
    (fun n h acc i hb he => step_apply m c n h (by omega) acc i)
    (t.val % 21) (by omega) (by have := Nat.div_add_mod t.val 21; have := t.isLt; omega) i
  rw [key, zero_add]

/-- At the last point of a row the output block holds what the accumulator holds. -/
theorem out_eq_acc (c : Dev nD) (t : Fin cfg0.N) (h0 : ¬ t.val % 21 = 0) (h1 : t.val % 21 = 20) :
    (outsAt0 m c t.val t.isLt).1 = (outsAt0 m c t.val t.isLt).2 := by
  rw [outsAt0_C m c t h0 h1]
  dsimp only
  exact (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2).trans
    (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2).symm

end Cert.KernelIdeal.Fold

end
-- ==== Proof.LibTypedRef.lean ====
/-
  Typed references: the transport between a value's type and its buffer's.
-/
import Idealize.ShloMosaic.Lib.StableHlo

namespace Cert.LibTypedRef

open Idealize.ShloMosaic Idealize.ShloMosaic.StableHlo

variable {sig : RefSig} {Val : EltTy → Type} {T : BufTy}

/-- A typed reference moves contents of its value's type `T` into its buffer's type and back along one equation of
    types; there and back is the identity.  (An operation of a module-local function, stated over typed references,
    writes its result through `toBuf` and the next one reads it through `ofBuf`: composed, the pair disappears, for any
    signature, value types and reference.) -/
theorem ofBuf_toBuf (x : TRef sig T) (v : T.Contents Val) : x.ofBuf (x.toBuf v) = v := by
  obtain ⟨r, rfl, _, _⟩ := x
  rfl

/-- And back and there. -/
theorem toBuf_ofBuf (x : TRef sig T) (v : x.ref.ty.Contents Val) : x.toBuf (x.ofBuf v) = v := by
  obtain ⟨r, rfl, _, _⟩ := x
  rfl

end Cert.LibTypedRef
-- ==== Proof.HostPrefix.lean ====
/-
  The arrays the kernel region finds, as functions of the program's arguments.

  Before the region the program computes the graph-convolution branch x (a chain shared with the reference, kept as
  one function), continues the two weight tables and the two biases by 64 zero rows / zero entries (8000 -> 8064, the
  padding value being the integer 0 converted), narrows to bf16 (the identity at the ideal values) and recasts each
  bias to one row. Read at an entry: the feature array is the argument; the class array is x; a padded table is the
  argument's row inside the first 8000 rows and zero past them; a padded bias likewise.
-/
import proofs.«173789_j7868380086329_1_alg».proof.Proof.Gen.KernelIdeal.Frame
import proofs.«173789_j7868380086329_1_alg».proof.Proof.LibTypedRef
import proofs.«173789_j7868380086329_1_alg».proof.Proof.LibLayout
import Idealize.ShloMosaic.Lib.StableHlo.Run
import Idealize.ShloMosaic.Lib.KernelVsHost
import Idealize.ShloMosaic.Lib.ValueIdx

noncomputable section

namespace Cert.KernelIdeal.HostPrefix

open Cert.KernelIdeal Cert.KernelIdeal.Gen Idealize.ShloMosaic Idealize.ShloMosaic.TcCoe Idealize.SL.Sem
open Idealize.ShloMosaic.ValueIdx

variable {F : FTy → Type} [FloatOps F]

/-- The graph-convolution branch as one function of its four inputs: the normalised adjacency D^(-1/2) Aᵀ D^(-1/2)
    (D the row sums of A), two propagation layers adj · (h · W) with a leaky rectifier (slope 0.2) between them. Both
    programs compute it with the same host operations; the proof never opens it. -/
def gcn (inp : FVec F S1x80x300 .f32) (A : FVec F S80x80 .f32) (W1 : FVec F S300x1024 .f32)
    (W2 : FVec F S1024x2048 .f32) : FVec F S80x2048 .f32 :=
  let v0 : FVec F S80x300 .f32 := shapeCast S80x300 inp shapeCasts_S1x80x300_S80x300
  let v1 : FVec F S80 .f32 := Host.reduceAdd A (constant S_ .f32 0x00000000#32) reducesTo_S80x80_S80_d1 h_S_
  let v3 : FVec F S80 .f32 := Host.powf v1 (broadcastInDim S80 ![] bcast_S_S80 (constant S_ .f32 0xBF000000#32))
  let v7 : FVec F S80x80 .f32 :=
    mulf (broadcastInDim S80x80 ![0, 1] bcast_S80x1_S80x80_0_1 (broadcastInDim S80x1 ![0] bcast_S80_S80x1_0 v3))
      (transpose S80x80 [1, 0] A transposes_S80x80_S80x80_1_0)
  let v10 : FVec F S80x80 .f32 :=
    mulf v7 (broadcastInDim S80x80 ![0, 1] bcast_S1x80_S80x80_0_1 (broadcastInDim S1x80 ![1] bcast_S80_S1x80_1 v3))
  let v11 : FVec F S80x1024 .f32 := Host.dotGeneral dot_S80x300_S300x1024_S80x1024_1_0_0_1_n_n none v0 W1
  let v12 : FVec F S80x1024 .f32 := Host.dotGeneral dot_S80x80_S80x1024_S80x1024_1_0_0_1_n_n none v10 v11
  let v13 : FVec F S80x1024 .f32 :=
    select (cmpf .oge v12 (broadcastInDim S80x1024 ![] bcast_S_S80x1024 (constant S_ .f32 0x00000000#32))) v12
      (mulf (broadcastInDim S80x1024 ![] bcast_S_S80x1024 (id (constant S_ .f32 0x3E4CCCCD#32))) v12)
  let v14 : FVec F S80x2048 .f32 := Host.dotGeneral dot_S80x1024_S1024x2048_S80x2048_1_0_0_1_n_n none v13 W2
  Host.dotGeneral dot_S80x80_S80x2048_S80x2048_1_0_0_1_n_n none v10 v14

/-! The padding value, and a padded table / a padded bias row read at an entry, over variables of the literal types. -/

/-- The integer zero converted is the real zero. -/
theorem padValue_apply (i : S_.Idx) : ((sitofp .f32 (constantI S_ 32 0#32) : FVec Ideal S_ .f32) i : EReal) = 0 := by
  rw [sitofp_apply]
  exact sitofp_zero

/-- A table of 8000 rows continued by 64 rows of the padding value and narrowed, at (n, k): row n of the table inside
    the first 8000 rows (every axis has low padding 0 and no interior padding, so the operand's index is the entry's
    own), zero past them (axis 0 fails the inside test there). -/
theorem padRows_apply (w : FVec Ideal S8000x2048 .f32) (n : Fin 8064) (k : Fin 2048) :
    ((truncf .bf16 (pad S8064x2048 ![0, 0] ![64, 0] ![0, 0] w (sitofp .f32 (constantI S_ 32 0#32) : FVec Ideal S_ .f32)
        pads_S8000x2048_S8064x2048_0640_000 h_S_) bitsLt_bf16_f32 : FVec Ideal S8064x2048 .bf16) (ix2 n k) : EReal)
      = if h : n.val < 8000 then (w (ix2 (⟨n.val, h⟩ : Fin 8000) k) : EReal) else 0 := by
  rw [truncf_apply]
  by_cases h : n.val < 8000
  · rw [dif_pos h]
    exact pad_apply_of_inside _ _ _ w _ _ _ (ix2 n k) (ix2 (⟨n.val, h⟩ : Fin 8000) k) (by
      intro a
      match a with
      | ⟨0, _⟩ => show n.val = 0 + n.val * (0 + 1); omega
      | ⟨1, _⟩ => show k.val = 0 + k.val * (0 + 1); omega)
  · rw [dif_neg h]
    refine (pad_apply_of_not_inside _ _ _ w _ _ _ (ix2 n k) (⟨0, by decide⟩ : Fin 2) ?_).trans (padValue_apply _)
    intro hc
    have h3 : (n.val - 0) / (0 + 1) < 8000 := hc.2.2
    omega

/-- A bias of 8000 entries continued by 64 entries of the padding value and recast to one row, at (0, n): the row at
    (0, n) is the padded vector at n, which is entry n of the bias inside the first 8000 and zero past them. -/
theorem padVec_apply (b : FVec Ideal S8000 .f32) (n : Fin 8064) :
    ((shapeCast S1x8064 (pad S8064 ![0] ![64] ![0] b (sitofp .f32 (constantI S_ 32 0#32) : FVec Ideal S_ .f32)
        pads_S8000_S8064_0640 h_S_) shapeCasts_S8064_S1x8064 : FVec Ideal S1x8064 .f32) (ix2 (0 : Fin 1) n) : EReal)
      = if h : n.val < 8000 then (b (ix1 (⟨n.val, h⟩ : Fin 8000)) : EReal) else 0 := by
  rw [Cert.Lib.Layout.rowCast_apply]
  by_cases h : n.val < 8000
  · rw [dif_pos h]
    exact pad_apply_of_inside _ _ _ b _ _ _ (ix1 n) (ix1 (⟨n.val, h⟩ : Fin 8000)) (by
      intro a
      match a with
      | ⟨0, _⟩ => show n.val = 0 + n.val * (0 + 1); omega)
  · rw [dif_neg h]
    refine (pad_apply_of_not_inside _ _ _ b _ _ _ (ix1 n) (⟨0, by decide⟩ : Fin 1) ?_).trans (padValue_apply _)
    intro hc
    have h3 : (n.val - 0) / (0 + 1) < 8000 := hc.2.2
    omega

variable (m : (ℓ : Loc nD τ sig) → Buf (Elt Ideal) ℓ)

/-! The arguments and the region-entry arrays, each at its literal type. -/
abbrev argFeat (c : Dev nD) : FVec Ideal S1024x2048 .f32 := m ((c : Thread nD τ).loc main_arg0)
abbrev argInp (c : Dev nD) : FVec Ideal S1x80x300 .f32 := m ((c : Thread nD τ).loc main_arg1)
abbrev argA (c : Dev nD) : FVec Ideal S80x80 .f32 := m ((c : Thread nD τ).loc main_arg2)
abbrev argW1 (c : Dev nD) : FVec Ideal S300x1024 .f32 := m ((c : Thread nD τ).loc main_arg3)
abbrev argW2 (c : Dev nD) : FVec Ideal S1024x2048 .f32 := m ((c : Thread nD τ).loc main_arg4)
abbrev argWimg (c : Dev nD) : FVec Ideal S8000x2048 .f32 := m ((c : Thread nD τ).loc main_arg5)
abbrev argBimg (c : Dev nD) : FVec Ideal S8000 .f32 := m ((c : Thread nD τ).loc main_arg6)
abbrev argWcls (c : Dev nD) : FVec Ideal S8000x2048 .f32 := m ((c : Thread nD τ).loc main_arg7)
abbrev argBcls (c : Dev nD) : FVec Ideal S8000 .f32 := m ((c : Thread nD τ).loc main_arg8)
abbrev entFeat (c : Dev nD) : FVec Ideal S1024x2048 .bf16 := V m c main_v20
abbrev entCls (c : Dev nD) : FVec Ideal S80x2048 .bf16 := V m c main_v21
abbrev entWimg (c : Dev nD) : FVec Ideal S8064x2048 .bf16 := V m c main_v22
abbrev entWcls (c : Dev nD) : FVec Ideal S8064x2048 .bf16 := V m c main_v23
abbrev entBimg (c : Dev nD) : FVec Ideal S1x8064 .f32 := V m c main_v24
abbrev entBcls (c : Dev nD) : FVec Ideal S1x8064 .f32 := V m c main_v25

/-- The feature array the region finds, at (P, k): the argument there. -/
theorem feat_apply (c : Dev nD) (P : Fin 1024) (k : Fin 2048) :
    (entFeat m c (ix2 P k) : EReal) = argFeat m c (ix2 P k) := by
  have e : (V m c main_v20 : S1024x2048.Idx → EReal)
      = (truncf .bf16 (argFeat m c) bitsLt_bf16_f32 : FVec Ideal S1024x2048 .bf16) := by
    dsimp only [Gen.V]
    simp only [Gen.hostOps0, Gen.hostOps0_1, Gen.hostOps0_2, Gen.hostOps0_3, Gen.hostOps0_4, Gen.hostOps0_5, Gen.hostOps0_6,
      Gen.hostOps0_7, Gen.hostOps0_8, Gen.hostOps0_9, Gen.hostOps0_10, List.flatten_cons, List.flatten_nil, List.append_nil,
      List.cons_append, List.nil_append]
    after_results
  show (V m c main_v20 : S1024x2048.Idx → EReal) (ix2 P k) = _
  rw [e]
  rfl

/-- The class array the region finds, at (q, k): the graph-convolution branch of the arguments there. -/
theorem cls_apply (c : Dev nD) (q : Fin 80) (k : Fin 2048) :
    (entCls m c (ix2 q k) : EReal) = gcn (F := Ideal) (argInp m c) (argA m c) (argW1 m c) (argW2 m c) (ix2 q k) := by
  have e : (V m c main_v21 : S80x2048.Idx → EReal)
      = (truncf .bf16 (gcn (F := Ideal) (argInp m c) (argA m c) (argW1 m c) (argW2 m c)) bitsLt_bf16_f32
          : FVec Ideal S80x2048 .bf16) := by
    dsimp only [Gen.V]
    simp only [Gen.hostOps0, Gen.hostOps0_1, Gen.hostOps0_2, Gen.hostOps0_3, Gen.hostOps0_4, Gen.hostOps0_5, Gen.hostOps0_6,
      Gen.hostOps0_7, Gen.hostOps0_8, Gen.hostOps0_9, Gen.hostOps0_10, List.flatten_cons, List.flatten_nil, List.append_nil,
      List.cons_append, List.nil_append]
    after_results_simp
    simp only [Cert.LibTypedRef.ofBuf_toBuf]
    rfl
  show (V m c main_v21 : S80x2048.Idx → EReal) (ix2 q k) = _
  rw [e]
  rfl

/-- The padded image-projection table, at (n, k): the argument's row n inside the table, zero past it. -/
theorem wimg_apply (c : Dev nD) (n : Fin 8064) (k : Fin 2048) :
    (entWimg m c (ix2 n k) : EReal) = if h : n.val < 8000 then (argWimg m c (ix2 (⟨n.val, h⟩ : Fin 8000) k) : EReal) else 0 := by
  have e : (V m c main_v22 : S8064x2048.Idx → EReal)
      = (truncf .bf16 (pad S8064x2048 ![0, 0] ![64, 0] ![0, 0] (argWimg m c)
          (sitofp .f32 (constantI S_ 32 0#32) : FVec Ideal S_ .f32) pads_S8000x2048_S8064x2048_0640_000 h_S_) bitsLt_bf16_f32
          : FVec Ideal S8064x2048 .bf16) := by
    dsimp only [Gen.V]
    simp only [Gen.hostOps0, Gen.hostOps0_1, Gen.hostOps0_2, Gen.hostOps0_3, Gen.hostOps0_4, Gen.hostOps0_5, Gen.hostOps0_6,
      Gen.hostOps0_7, Gen.hostOps0_8, Gen.hostOps0_9, Gen.hostOps0_10, List.flatten_cons, List.flatten_nil, List.append_nil,
      List.cons_append, List.nil_append]
    after_results
    simp only [Cert.LibTypedRef.ofBuf_toBuf]
    rfl
  show (V m c main_v22 : S8064x2048.Idx → EReal) (ix2 n k) = _
  rw [e]
  exact padRows_apply _ n k

/-- The padded class-projection table, at (n, k). -/
theorem wcls_apply (c : Dev nD) (n : Fin 8064) (k : Fin 2048) :
    (entWcls m c (ix2 n k) : EReal) = if h : n.val < 8000 then (argWcls m c (ix2 (⟨n.val, h⟩ : Fin 8000) k) : EReal) else 0 := by
  have e : (V m c main_v23 : S8064x2048.Idx → EReal)
      = (truncf .bf16 (pad S8064x2048 ![0, 0] ![64, 0] ![0, 0] (argWcls m c)
          (sitofp .f32 (constantI S_ 32 0#32) : FVec Ideal S_ .f32) pads_S8000x2048_S8064x2048_0640_000 h_S_) bitsLt_bf16_f32
          : FVec Ideal S8064x2048 .bf16) := by
    dsimp only [Gen.V]
    simp only [Gen.hostOps0, Gen.hostOps0_1, Gen.hostOps0_2, Gen.hostOps0_3, Gen.hostOps0_4, Gen.hostOps0_5, Gen.hostOps0_6,
      Gen.hostOps0_7, Gen.hostOps0_8, Gen.hostOps0_9, Gen.hostOps0_10, List.flatten_cons, List.flatten_nil, List.append_nil,
      List.cons_append, List.nil_append]
    after_results
    simp only [Cert.LibTypedRef.ofBuf_toBuf]
    rfl
  show (V m c main_v23 : S8064x2048.Idx → EReal) (ix2 n k) = _
  rw [e]
  exact padRows_apply _ n k

/-- The padded image-projection bias as one row, at (0, n). -/
theorem bimg_apply (c : Dev nD) (n : Fin 8064) :
    (entBimg m c (ix2 (0 : Fin 1) n) : EReal) = if h : n.val < 8000 then (argBimg m c (ix1 (⟨n.val, h⟩ : Fin 8000)) : EReal) else 0 := by
  have e : (V m c main_v24 : S1x8064.Idx → EReal)
      = (shapeCast S1x8064 (pad S8064 ![0] ![64] ![0] (argBimg m c)
          (sitofp .f32 (constantI S_ 32 0#32) : FVec Ideal S_ .f32) pads_S8000_S8064_0640 h_S_) shapeCasts_S8064_S1x8064
          : FVec Ideal S1x8064 .f32) := by
    dsimp only [Gen.V]
    simp only [Gen.hostOps0, Gen.hostOps0_1, Gen.hostOps0_2, Gen.hostOps0_3, Gen.hostOps0_4, Gen.hostOps0_5, Gen.hostOps0_6,
      Gen.hostOps0_7, Gen.hostOps0_8, Gen.hostOps0_9, Gen.hostOps0_10, List.flatten_cons, List.flatten_nil, List.append_nil,
      List.cons_append, List.nil_append]
    after_results
    simp only [Cert.LibTypedRef.ofBuf_toBuf]
    rfl
  show (V m c main_v24 : S1x8064.Idx → EReal) (ix2 (0 : Fin 1) n) = _
  rw [e]
  exact padVec_apply _ n

/-- The padded class-projection bias as one row, at (0, n). -/
theorem bcls_apply (c : Dev nD) (n : Fin 8064) :
    (entBcls m c (ix2 (0 : Fin 1) n) : EReal) = if h : n.val < 8000 then (argBcls m c (ix1 (⟨n.val, h⟩ : Fin 8000)) : EReal) else 0 := by
  have e : (V m c main_v25 : S1x8064.Idx → EReal)
      = (shapeCast S1x8064 (pad S8064 ![0] ![64] ![0] (argBcls m c)
          (sitofp .f32 (constantI S_ 32 0#32) : FVec Ideal S_ .f32) pads_S8000_S8064_0640 h_S_) shapeCasts_S8064_S1x8064
          : FVec Ideal S1x8064 .f32) := by
    dsimp only [Gen.V]
    simp only [Gen.hostOps0, Gen.hostOps0_1, Gen.hostOps0_2, Gen.hostOps0_3, Gen.hostOps0_4, Gen.hostOps0_5, Gen.hostOps0_6,
      Gen.hostOps0_7, Gen.hostOps0_8, Gen.hostOps0_9, Gen.hostOps0_10, List.flatten_cons, List.flatten_nil, List.append_nil,
      List.cons_append, List.nil_append]
    after_results
    simp only [Cert.LibTypedRef.ofBuf_toBuf]
    rfl
  show (V m c main_v25 : S1x8064.Idx → EReal) (ix2 (0 : Fin 1) n) = _
  rw [e]
  exact padVec_apply _ n

end Cert.KernelIdeal.HostPrefix

end
-- ==== Proof.LibBlockSum.lean ====
/-
  A sum over B·J consecutive naturals, block by block (a general lemma: nothing here depends on a program).
-/
import Mathlib.Algebra.BigOperators.Fin
import Mathlib.Algebra.BigOperators.Intervals

namespace BlockSum

/-- The sum of `f` over `0 … B·J − 1` is the sum over the `J` blocks of the `B` terms of each block. -/
theorem sum_blocks {β : Type*} [AddCommMonoid β] (B J : ℕ) (f : ℕ → β) :
    ∑ s ∈ Finset.range J, ∑ j : Fin B, f (B * s + j.val) = ∑ k : Fin (B * J), f k.val := by
  -- Both sides become sums over initial segments of ℕ; then one block is split off at a time.
  rw [Fin.sum_univ_eq_sum_range (fun k => f k) (B * J)]
  induction J with
  | zero => simp
  | succ J ih =>
    rw [Finset.sum_range_succ, ih, Nat.mul_succ, Finset.sum_range_add,
      Fin.sum_univ_eq_sum_range (fun j => f (B * J + j)) B]

end BlockSum
-- ==== Proof.Bilinear.lean ====
/-
  Bilinear pooling of two projections, and the padded, block-by-block form of the same sum.

  For a feature row f (K entries), a class row x (K entries), two weight tables wi, wc (J rows of K entries) and two
  biases bi, bc (J entries), the pooled value is the sum over the J projection coordinates j of
      (f · wi_j + bi_j) · (x · wc_j + bc_j).
  If the tables and biases are continued by zeros past row J, every added term is (0 + 0) · (0 + 0) = 0 on the
  extended reals (a product with zero is zero there even for an infinite factor), so the sum over any longer range
  is the same; and a sum over 21 · 384 consecutive coordinates may be taken 384 at a time.
-/
import Mathlib.Data.EReal.Basic
import Mathlib.Algebra.BigOperators.Fin
import Mathlib.Algebra.BigOperators.Intervals
import proofs.«173789_j7868380086329_1_alg».proof.Proof.LibBlockSum

noncomputable section

namespace Cert.Bilinear

variable {B C K J : ℕ}

/-- The pooled value at (p, q): the sum over the projection coordinates of the product of the two affine projections. -/
def pooled (feat : Fin B → Fin K → EReal) (x : Fin C → Fin K → EReal)
    (wi : Fin J → Fin K → EReal) (bi : Fin J → EReal) (wc : Fin J → Fin K → EReal) (bc : Fin J → EReal)
    (p : Fin B) (q : Fin C) : EReal :=
  ∑ j : Fin J, ((∑ k : Fin K, feat p k * wi j k) + bi j) * ((∑ k : Fin K, x q k * wc j k) + bc j)

/-- A table of J rows continued by zero rows. -/
def padRows (w : Fin J → Fin K → EReal) (n : ℕ) (k : Fin K) : EReal := if h : n < J then w ⟨n, h⟩ k else 0

/-- A vector of J entries continued by zeros. -/
def padVec (b : Fin J → EReal) (n : ℕ) : EReal := if h : n < J then b ⟨n, h⟩ else 0

/-- Term n of the padded sum, for one feature row and one class row. -/
def padTerm (f : Fin K → EReal) (x : Fin K → EReal)
    (wi : Fin J → Fin K → EReal) (bi : Fin J → EReal) (wc : Fin J → Fin K → EReal) (bc : Fin J → EReal) (n : ℕ) : EReal :=
  ((∑ k : Fin K, f k * padRows wi n k) + padVec bi n) * ((∑ k : Fin K, x k * padRows wc n k) + padVec bc n)

/-- Inside the table the padded term is the pooled sum's term. -/
theorem padTerm_of_lt (f x : Fin K → EReal) (wi : Fin J → Fin K → EReal) (bi : Fin J → EReal)
    (wc : Fin J → Fin K → EReal) (bc : Fin J → EReal) (n : ℕ) (h : n < J) :
    padTerm f x wi bi wc bc n
      = ((∑ k : Fin K, f k * wi ⟨n, h⟩ k) + bi ⟨n, h⟩) * ((∑ k : Fin K, x k * wc ⟨n, h⟩ k) + bc ⟨n, h⟩) := by
  simp only [padTerm, padRows, padVec, dif_pos h]

/-- Past the table the padded term vanishes: both factors are sums of products with zero, plus zero. -/
theorem padTerm_of_ge (f x : Fin K → EReal) (wi : Fin J → Fin K → EReal) (bi : Fin J → EReal)
    (wc : Fin J → Fin K → EReal) (bc : Fin J → EReal) (n : ℕ) (h : J ≤ n) :
    padTerm f x wi bi wc bc n = 0 := by
  have hn : ¬ n < J := Nat.not_lt.mpr h
  simp only [padTerm, padRows, padVec, dif_neg hn, mul_zero, Finset.sum_const_zero, add_zero]

/-- The sum of the padded terms over 21 blocks of 384 coordinates is the pooled value over the first J = 8000. -/
theorem blocks_eq_pooled (feat : Fin B → Fin K → EReal) (x : Fin C → Fin K → EReal)
    (wi : Fin 8000 → Fin K → EReal) (bi : Fin 8000 → EReal) (wc : Fin 8000 → Fin K → EReal) (bc : Fin 8000 → EReal)
    (p : Fin B) (q : Fin C) :
    ∑ s ∈ Finset.range 21, ∑ j : Fin 384, padTerm (feat p) (x q) wi bi wc bc (384 * s + j.val)
      = pooled feat x wi bi wc bc p q := by
  rw [BlockSum.sum_blocks 384 21 (padTerm (feat p) (x q) wi bi wc bc),
    Fin.sum_univ_eq_sum_range (fun n => padTerm (feat p) (x q) wi bi wc bc n) (384 * 21),
    show 384 * 21 = 8000 + 64 from rfl, Finset.sum_range_add]
  rw [Finset.sum_eq_zero (s := Finset.range 64) (fun n _ => padTerm_of_ge _ _ _ _ _ _ _ (Nat.le_add_right _ _)), add_zero,
    ← Fin.sum_univ_eq_sum_range (fun n => padTerm (feat p) (x q) wi bi wc bc n) 8000]
  exact Finset.sum_congr rfl fun j _ => padTerm_of_lt _ _ _ _ _ _ _ j.isLt

end Cert.Bilinear

end
-- ==== Proof.PooledArray.lean ====
/-
  The pooled values as one array: entry (p, q) of the [1024, 80] result is the pooled value of feature row p and class
  row q over the 8000 projection coordinates.
-/
import proofs.«173789_j7868380086329_1_alg».proof.Proof.Bilinear
import Idealize.ShloMosaic.Lib.ValueIdx

noncomputable section

namespace Cert.Bilinear

open Idealize.ShloMosaic Idealize.ShloMosaic.ValueIdx

/-- The result array as one function of the feature array, the class array, the two tables and the two biases. -/
def pooledArr (feat : (⟨2, ![1024, 2048]⟩ : Shape).Idx → EReal) (x : (⟨2, ![80, 2048]⟩ : Shape).Idx → EReal)
    (wimg : (⟨2, ![8000, 2048]⟩ : Shape).Idx → EReal) (bimg : (⟨1, ![8000]⟩ : Shape).Idx → EReal)
    (wcls : (⟨2, ![8000, 2048]⟩ : Shape).Idx → EReal) (bcls : (⟨1, ![8000]⟩ : Shape).Idx → EReal) :
    (⟨2, ![1024, 80]⟩ : Shape).Idx → EReal :=
  fun i => pooled (fun (p : Fin 1024) (k : Fin 2048) => feat (ix2 p k)) (fun (q : Fin 80) (k : Fin 2048) => x (ix2 q k))
    (fun (j : Fin 8000) (k : Fin 2048) => wimg (ix2 j k)) (fun j : Fin 8000 => bimg (ix1 j))
    (fun (j : Fin 8000) (k : Fin 2048) => wcls (ix2 j k)) (fun j : Fin 8000 => bcls (ix1 j)) (i 0) (i 1)

/-- At (p, q). -/
theorem pooledArr_apply (feat : (⟨2, ![1024, 2048]⟩ : Shape).Idx → EReal) (x : (⟨2, ![80, 2048]⟩ : Shape).Idx → EReal)
    (wimg : (⟨2, ![8000, 2048]⟩ : Shape).Idx → EReal) (bimg : (⟨1, ![8000]⟩ : Shape).Idx → EReal)
    (wcls : (⟨2, ![8000, 2048]⟩ : Shape).Idx → EReal) (bcls : (⟨1, ![8000]⟩ : Shape).Idx → EReal)
    (p : Fin 1024) (q : Fin 80) :
    pooledArr feat x wimg bimg wcls bcls (ix2 p q)
      = pooled (fun (p : Fin 1024) (k : Fin 2048) => feat (ix2 p k)) (fun (q : Fin 80) (k : Fin 2048) => x (ix2 q k))
          (fun (j : Fin 8000) (k : Fin 2048) => wimg (ix2 j k)) (fun j : Fin 8000 => bimg (ix1 j))
          (fun (j : Fin 8000) (k : Fin 2048) => wcls (ix2 j k)) (fun j : Fin 8000 => bcls (ix1 j)) p q := rfl

end Cert.Bilinear

end
-- ==== Proof.Final.lean ====
/-
  The result array.

  A point's blocks are rectangles of the arrays the region finds: the feature block of row tile b = t / 21, the whole
  class array, and the table and bias blocks of projection tile s = t % 21. So the addend of point 21 b + s at (p, q)
  is the sum over j < 384 of the padded term 384 s + j of feature row 512 b + p and class row q; the 21 addends of a
  row of points add up to the pooled value; the last point of row b writes the accumulator to rows 512 b … 512 b + 511
  of the result, and the two write-backs cover it.
-/
import proofs.«173789_j7868380086329_1_alg».proof.Proof.Fold
import proofs.«173789_j7868380086329_1_alg».proof.Proof.HostPrefix
import proofs.«173789_j7868380086329_1_alg».proof.Proof.PooledArray

noncomputable section

namespace Cert.KernelIdeal.Final

open Cert.KernelIdeal Cert.KernelIdeal.Gen Cert.KernelIdeal.Value Cert.KernelIdeal.Fold Cert.KernelIdeal.HostPrefix
open Cert.Bilinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Where each window's block sits: the printed index maps, decided over the 42 points -/

theorem idx0 : ∀ t : Fin cfg0.N, win0_0.index t (0 : Fin 2) = t.val / 21 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val % 21 ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val % 21 :=
  (by decide +kernel : ∀ t : Fin grid0.N, _)
theorem idx4 : ∀ t : Fin cfg0.N, win0_4.index t (0 : Fin 2) = t.val % 21 ∧ win0_4.index t (1 : Fin 2) = 0 :=
  (by decide +kernel : ∀ t : Fin grid0.N, _)
theorem idx5 : ∀ t : Fin cfg0.N, win0_5.index t (0 : Fin 2) = 0 ∧ win0_5.index t (1 : Fin 2) = t.val % 21 :=
  (by decide +kernel : ∀ t : Fin grid0.N, _)
theorem idx6 : ∀ t : Fin cfg0.N, win0_6.index t (0 : Fin 2) = t.val / 21 ∧ win0_6.index t (1 : Fin 2) = 0 :=
  (by decide +kernel : ∀ t : Fin grid0.N, _)

/-! ## A block's entry is its array's entry at block index × block size + the coordinate inside the block

(b is the point's row tile t / 21, s its projection tile t % 21.) -/

theorem blkFeat_apply (c : Dev nD) (t : Fin cfg0.N) (b s : ℕ) (hb : t.val / 21 = b) (hs : t.val % 21 = s) (p : Fin 512) (k : Fin 2048) :
    (blkFeat m c t (ix2 p k) : EReal) = entFeat m c (ix2 (⟨512 * b + p.val, by have hN : t.val < 42 := lt_of_lt_of_eq t.isLt (show cfg0.N = 42 from N_0); have := p.isLt; omega⟩ : Fin 1024) k) := by
  obtain ⟨f0, f1⟩ := idx0 t
  unfold blkFeat iblk
  rw [View.read_apply]
  show V m c main_v20 _ = V m c main_v20 _
  refine congrArg (V m c main_v20) ?_
  funext a; apply Fin.ext
  match a with
  | ⟨0, _⟩ => show win0_0.index t (0 : Fin 2) * 512 + 1 * p.val = 512 * b + p.val; rw [f0]; omega
  | ⟨1, _⟩ => show win0_0.index t (1 : Fin 2) * 2048 + 1 * k.val = k.val; rw [f1]; omega

theorem blkCls_apply (c : Dev nD) (t : Fin cfg0.N) (b s : ℕ) (hb : t.val / 21 = b) (hs : t.val % 21 = s) (q : Fin 80) (k : Fin 2048) :
    (blkCls m c t (ix2 q k) : EReal) = entCls m c (ix2 q k) := by
  obtain ⟨f0, f1⟩ := idx1 t
  unfold blkCls iblk
  rw [View.read_apply]
  show V m c main_v21 _ = V m c main_v21 _
  refine congrArg (V m c main_v21) ?_
  funext a; apply Fin.ext
  match a with
  | ⟨0, _⟩ => show win0_1.index t (0 : Fin 2) * 80 + 1 * q.val = q.val; rw [f0]; omega
  | ⟨1, _⟩ => show win0_1.index t (1 : Fin 2) * 2048 + 1 * k.val = k.val; rw [f1]; omega

theorem blkWimg_apply (c : Dev nD) (t : Fin cfg0.N) (b s : ℕ) (hb : t.val / 21 = b) (hs : t.val % 21 = s) (j : Fin 384) (k : Fin 2048) :
    (blkWimg m c t (ix2 j k) : EReal) = entWimg m c (ix2 (⟨384 * s + j.val, by have hN : t.val < 42 := lt_of_lt_of_eq t.isLt (show cfg0.N = 42 from N_0); have := j.isLt; omega⟩ : Fin 8064) k) := by
  obtain ⟨f0, f1⟩ := idx2 t
  unfold blkWimg iblk
  rw [View.read_apply]
  show V m c main_v22 _ = V m c main_v22 _
  refine congrArg (V m c main_v22) ?_
  funext a; apply Fin.ext
  match a with
  | ⟨0, _⟩ => show win0_2.index t (0 : Fin 2) * 384 + 1 * j.val = 384 * s + j.val; rw [f0]; omega
  | ⟨1, _⟩ => show win0_2.index t (1 : Fin 2) * 2048 + 1 * k.val = k.val; rw [f1]; omega

theorem blkBimg_apply (c : Dev nD) (t : Fin cfg0.N) (b s : ℕ) (hb : t.val / 21 = b) (hs : t.val % 21 = s) (j : Fin 384) :
    (blkBimg m c t (ix2 (0 : Fin 1) j) : EReal) = entBimg m c (ix2 (0 : Fin 1) (⟨384 * s + j.val, by have hN : t.val < 42 := lt_of_lt_of_eq t.isLt (show cfg0.N = 42 from N_0); have := j.isLt; omega⟩ : Fin 8064)) := by
  obtain ⟨f0, f1⟩ := idx3 t
  unfold blkBimg iblk
  rw [View.read_apply]
  show V m c main_v24 _ = V m c main_v24 _
  refine congrArg (V m c main_v24) ?_
  funext a; apply Fin.ext
  match a with
  | ⟨0, _⟩ => show win0_3.index t (0 : Fin 2) * 1 + 1 * 0 = 0; rw [f0]
  | ⟨1, _⟩ => show win0_3.index t (1 : Fin 2) * 384 + 1 * j.val = 384 * s + j.val; rw [f1]; omega

theorem blkWcls_apply (c : Dev nD) (t : Fin cfg0.N) (b s : ℕ) (hb : t.val / 21 = b) (hs : t.val % 21 = s) (j : Fin 384) (k : Fin 2048) :
    (blkWcls m c t (ix2 j k) : EReal) = entWcls m c (ix2 (⟨384 * s + j.val, by have hN : t.val < 42 := lt_of_lt_of_eq t.isLt (show cfg0.N = 42 from N_0); have := j.isLt; omega⟩ : Fin 8064) k) := by
  obtain ⟨f0, f1⟩ := idx4 t
  unfold blkWcls iblk
  rw [View.read_apply]
  show V m c main_v23 _ = V m c main_v23 _
  refine congrArg (V m c main_v23) ?_
  funext a; apply Fin.ext
  match a with
  | ⟨0, _⟩ => show win0_4.index t (0 : Fin 2) * 384 + 1 * j.val = 384 * s + j.val; rw [f0]; omega
  | ⟨1, _⟩ => show win0_4.index t (1 : Fin 2) * 2048 + 1 * k.val = k.val; rw [f1]; omega

theorem blkBcls_apply (c : Dev nD) (t : Fin cfg0.N) (b s : ℕ) (hb : t.val / 21 = b) (hs : t.val % 21 = s) (j : Fin 384) :
    (blkBcls m c t (ix2 (0 : Fin 1) j) : EReal) = entBcls m c (ix2 (0 : Fin 1) (⟨384 * s + j.val, by have hN : t.val < 42 := lt_of_lt_of_eq t.isLt (show cfg0.N = 42 from N_0); have := j.isLt; omega⟩ : Fin 8064)) := by
  obtain ⟨f0, f1⟩ := idx5 t
  unfold blkBcls iblk
  rw [View.read_apply]
  show V m c main_v25 _ = V m c main_v25 _
  refine congrArg (V m c main_v25) ?_
  funext a; apply Fin.ext
  match a with
  | ⟨0, _⟩ => show win0_5.index t (0 : Fin 2) * 1 + 1 * 0 = 0; rw [f0]
  | ⟨1, _⟩ => show win0_5.index t (1 : Fin 2) * 384 + 1 * j.val = 384 * s + j.val; rw [f1]; omega

/-! ## A point's addend as padded terms of the arguments -/

/-- The arguments (and the graph-convolution branch of four of them) read by coordinates. -/
abbrev featRows (c : Dev nD) : Fin 1024 → Fin 2048 → EReal := fun P k => argFeat m c (ix2 P k)
abbrev clsRows (c : Dev nD) : Fin 80 → Fin 2048 → EReal :=
  fun q k => gcn (F := Ideal) (argInp m c) (argA m c) (argW1 m c) (argW2 m c) (ix2 q k)
abbrev wimgRows (c : Dev nD) : Fin 8000 → Fin 2048 → EReal := fun j k => argWimg m c (ix2 j k)
abbrev bimgVec (c : Dev nD) : Fin 8000 → EReal := fun j => argBimg m c (ix1 j)
abbrev wclsRows (c : Dev nD) : Fin 8000 → Fin 2048 → EReal := fun j k => argWcls m c (ix2 j k)
abbrev bclsVec (c : Dev nD) : Fin 8000 → EReal := fun j => argBcls m c (ix1 j)

/-- The addend of point t = 21 b + s at (p, q): the padded terms 384 s … 384 s + 383 of feature row 512 b + p and class row q. -/
theorem addend_eq (c : Dev nD) (t : Fin cfg0.N) (b s : ℕ) (hb : t.val / 21 = b) (hs : t.val % 21 = s) (p : Fin 512) (q : Fin 80) :
    addend m c t.val (ix2 p q)
      = ∑ j : Fin 384, padTerm (featRows m c (⟨512 * b + p.val, by have hN : t.val < 42 := lt_of_lt_of_eq t.isLt (show cfg0.N = 42 from N_0); have := p.isLt; omega⟩ : Fin 1024)) (clsRows m c q)
          (wimgRows m c) (bimgVec m c) (wclsRows m c) (bclsVec m c) (384 * s + j.val) := by
  have e : addend m c t.val (ix2 p q) = blockProd (blkFeat m c t) (blkWimg m c t) (blkBimg m c t) (blkCls m c t)
      (blkWcls m c t) (blkBcls m c t) p q := addend_of_lt m c t.val t.isLt (ix2 p q)
  rw [e]
  unfold blockProd
  refine Finset.sum_congr rfl fun j _ => ?_
  have hN : t.val < 42 := lt_of_lt_of_eq t.isLt (show cfg0.N = 42 from N_0)
  have hp := p.isLt
  have hj := j.isLt
  have hF : ∀ k : Fin 2048, (blkFeat m c t (ix2 p k) : EReal)
      = featRows m c (⟨512 * b + p.val, by omega⟩ : Fin 1024) k :=
    fun k => (blkFeat_apply m c t b s hb hs p k).trans (feat_apply m c (⟨512 * b + p.val, by omega⟩ : Fin 1024) k)
  have hC : ∀ k : Fin 2048, (blkCls m c t (ix2 q k) : EReal) = clsRows m c q k :=
    fun k => (blkCls_apply m c t b s hb hs q k).trans (cls_apply m c q k)
  have hWi : ∀ k : Fin 2048, (blkWimg m c t (ix2 j k) : EReal) = padRows (wimgRows m c) (384 * s + j.val) k :=
    fun k => (blkWimg_apply m c t b s hb hs j k).trans (wimg_apply m c (⟨384 * s + j.val, by omega⟩ : Fin 8064) k)
  have hWc : ∀ k : Fin 2048, (blkWcls m c t (ix2 j k) : EReal) = padRows (wclsRows m c) (384 * s + j.val) k :=
    fun k => (blkWcls_apply m c t b s hb hs j k).trans (wcls_apply m c (⟨384 * s + j.val, by omega⟩ : Fin 8064) k)
  have hBi : (blkBimg m c t (ix2 (0 : Fin 1) j) : EReal) = padVec (bimgVec m c) (384 * s + j.val) :=
    (blkBimg_apply m c t b s hb hs j).trans (bimg_apply m c (⟨384 * s + j.val, by omega⟩ : Fin 8064))
  have hBc : (blkBcls m c t (ix2 (0 : Fin 1) j) : EReal) = padVec (bclsVec m c) (384 * s + j.val) :=
    (blkBcls_apply m c t b s hb hs j).trans (bcls_apply m c (⟨384 * s + j.val, by omega⟩ : Fin 8064))
  rw [Finset.sum_congr rfl (fun k _ => by rw [hF k, hWi k] :
      ∀ k ∈ (Finset.univ : Finset (Fin 2048)), (blkFeat m c t (ix2 p k) : EReal) * (blkWimg m c t (ix2 j k) : EReal)
        = featRows m c (⟨512 * b + p.val, by omega⟩ : Fin 1024) k * padRows (wimgRows m c) (384 * s + j.val) k),
    Finset.sum_congr rfl (fun k _ => by rw [hC k, hWc k] :
      ∀ k ∈ (Finset.univ : Finset (Fin 2048)), (blkCls m c t (ix2 q k) : EReal) * (blkWcls m c t (ix2 j k) : EReal)
        = clsRows m c q k * padRows (wclsRows m c) (384 * s + j.val) k),
    hBi, hBc]
  rfl

/-! ## The write-backs and the final array -/

/-- The result array: entry (P, q) is the pooled value of feature row P and class row q. -/
abbrev G (c : Dev nD) : FVec Ideal S1024x80 .f32 :=
  pooledArr (argFeat m c) (gcn (F := Ideal) (argInp m c) (argA m c) (argW1 m c) (argW2 m c)) (argWimg m c) (argBimg m c)
    (argWcls m c) (argBcls m c)

/-- What the last point of row tile b writes back is rows 512 b … 512 b + 511 of the pooled array. -/
theorem flushed_eq (c : Dev nD) (t : Fin cfg0.N) (hf : (cfg0.win 6).flush t = true) :
    (dats m 0 c).flushed 6 t = ((cfg0.win 6).blk t).view.read (Elt Ideal) (G m c) := by
  have hN : t.val < 42 := lt_of_lt_of_eq t.isLt (show cfg0.N = 42 from N_0)
  have h1 : t.val % 21 = 20 := (flush0_6 t).mp hf
  have h0 : ¬ t.val % 21 = 0 := by omega
  rw [flushed6 m c t, out_eq_acc m c t h0 h1]
  funext j
  obtain ⟨p, q, rfl⟩ : ∃ (p : Fin 512) (q : Fin 80), j = ix2 p q := ⟨j 0, j 1, eq_ix2 j⟩
  rw [View.read_apply]
  have hemb : ((cfg0.win 6).blk t).view.emb (ix2 p q)
      = ix2 (⟨512 * (t.val / 21) + p.val, by have := p.isLt; omega⟩ : Fin 1024) q := by
    obtain ⟨f0, f1⟩ := idx6 t
    funext a; apply Fin.ext
    match a with
    | ⟨0, _⟩ => show win0_6.index t (0 : Fin 2) * 512 + 1 * p.val = 512 * (t.val / 21) + p.val; rw [f0]; omega
    | ⟨1, _⟩ => show win0_6.index t (1 : Fin 2) * 80 + 1 * q.val = q.val; rw [f1]; omega
  show ((outsAt0 m c t.val t.isLt).2 (ix2 p q) : EReal) = G m c (((cfg0.win 6).blk t).view.emb (ix2 p q))
  rw [hemb, acc_apply m c t (ix2 p q), h1]
  have hsum : ∀ s ∈ Finset.range 21, addend m c (21 * (t.val / 21) + s) (ix2 p q)
      = ∑ j : Fin 384, padTerm (featRows m c (⟨512 * (t.val / 21) + p.val, by have := p.isLt; omega⟩ : Fin 1024)) (clsRows m c q)
          (wimgRows m c) (bimgVec m c) (wclsRows m c) (bclsVec m c) (384 * s + j.val) := by
    intro s hs
    have hs' : s < 21 := Finset.mem_range.mp hs
    have hlt : 21 * (t.val / 21) + s < cfg0.N := Nat.lt_of_lt_of_eq (by omega : 21 * (t.val / 21) + s < 42) N_0.symm
    exact addend_eq m c ⟨21 * (t.val / 21) + s, hlt⟩ (t.val / 21) s (by show (21 * (t.val / 21) + s) / 21 = t.val / 21; omega)
      (by show (21 * (t.val / 21) + s) % 21 = s; omega) p q
  rw [Finset.sum_congr rfl hsum]
  exact blocks_eq_pooled (featRows m c) (clsRows m c) (wimgRows m c) (bimgVec m c) (wclsRows m c) (bclsVec m c) _ q

/-- An entry of the result array lies in point t's block iff each coordinate is in the block's range. -/
theorem mem_blk6 (t : Fin cfg0.N) (i : S1024x80.Idx) :
    i ∈ ((cfg0.win 6).blk t).view.set ↔ ∀ a : Fin 2, win0_6.index t a * S512x80.size a ≤ (i a).val
      ∧ (i a).val < win0_6.index t a * S512x80.size a + S512x80.size a := by
  show i ∈ ((View.whole main_v26).slice (win0_6.rect t)).set ↔ _
  rw [View.set_slice_whole, Rect.mem_set_unit]
  exact Iff.rfl

/-- Every entry of the result array is in the block of the last point of its row tile. -/
theorem cover (i : S1024x80.Idx) :
    ∃ t : Fin cfg0.N, (cfg0.win 6).flush t = true ∧ i ∈ ((cfg0.win 6).blk t).view.set := by
  have hi0 : (i 0).val < 1024 := (i 0).isLt
  have hi1 : (i 1).val < 80 := (i 1).isLt
  have hlt : 21 * ((i 0).val / 512) + 20 < cfg0.N :=
    Nat.lt_of_lt_of_eq (by omega : 21 * ((i 0).val / 512) + 20 < 42) N_0.symm
  refine ⟨⟨21 * ((i 0).val / 512) + 20, hlt⟩, (flush0_6 _).mpr (by show (21 * ((i 0).val / 512) + 20) % 21 = 20; omega), ?_⟩
  rw [mem_blk6]
  obtain ⟨f0, f1⟩ := idx6 ⟨21 * ((i 0).val / 512) + 20, hlt⟩
  have g0 : win0_6.index ⟨21 * ((i 0).val / 512) + 20, hlt⟩ (0 : Fin 2) = (i 0).val / 512 := by
    rw [f0]; show (21 * ((i 0).val / 512) + 20) / 21 = (i 0).val / 512; omega
  intro a
  match a with
  | ⟨0, _⟩ =>
    show win0_6.index ⟨21 * ((i 0).val / 512) + 20, hlt⟩ (0 : Fin 2) * 512 ≤ (i 0).val
      ∧ (i 0).val < win0_6.index ⟨21 * ((i 0).val / 512) + 20, hlt⟩ (0 : Fin 2) * 512 + 512
    rw [g0]; omega
  | ⟨1, _⟩ =>
    show win0_6.index ⟨21 * ((i 0).val / 512) + 20, hlt⟩ (1 : Fin 2) * 80 ≤ (i 1).val
      ∧ (i 1).val < win0_6.index ⟨21 * ((i 0).val / 512) + 20, hlt⟩ (1 : Fin 2) * 80 + 80
    rw [f1]; omega

/-- THE RESULT ARRAY after the run is the pooled array of the arguments. -/
theorem final (c : Dev nD) : (dats m 0 c).arrAt 6 cfg0.N = G m c :=
  (dats m 0 c).arrAt_eq_of_cover 6 (G m c) (flushed_eq m c) cover

/-- The kernel program's run, read: the result at the pooled array, the nine arguments unchanged. -/
theorem run : θ_run defs (onTc (τ := τ) (main (F := Ideal))) ⟨m, fun _ => 0, ρ⟩ fun r => ∀ c : Dev nD,
      r.2.mem ((c : Thread nD τ).loc main_v26) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Final

end
-- ==== Proof.RefTerms.lean ====
/-
  The reference's two stretches of host operations as functions of their inputs: the graph-convolution branch, and the
  pooling tail (two affine projections and their product).
-/
import proofs.«173789_j7868380086329_1_alg».proof.Proof.Gen.ReferenceIdeal

noncomputable section

namespace Cert.ReferenceIdeal.RefRun

open Cert.ReferenceIdeal Cert.ReferenceIdeal.Gen Idealize.ShloMosaic Idealize.SL.Sem

variable {F : FTy → Type} [FloatOps F]

/-- The graph-convolution branch as one function of its four inputs: the normalised adjacency D^(-1/2) Aᵀ D^(-1/2)
    (D the row sums of A), two propagation layers adj · (h · W) with a leaky rectifier (slope 0.2) between them. Both
    programs compute it with the same host operations; the proof never opens it. -/
def gcn (inp : FVec F S1x80x300 .f32) (A : FVec F S80x80 .f32) (W1 : FVec F S300x1024 .f32)
    (W2 : FVec F S1024x2048 .f32) : FVec F S80x2048 .f32 :=
  let v0 : FVec F S80x300 .f32 := shapeCast S80x300 inp shapeCasts_S1x80x300_S80x300
  let v1 : FVec F S80 .f32 := Host.reduceAdd A (constant S_ .f32 0x00000000#32) reducesTo_S80x80_S80_d1 h_S_
  let v3 : FVec F S80 .f32 := Host.powf v1 (broadcastInDim S80 ![] bcast_S_S80 (constant S_ .f32 0xBF000000#32))
  let v7 : FVec F S80x80 .f32 :=
    mulf (broadcastInDim S80x80 ![0, 1] bcast_S80x1_S80x80_0_1 (broadcastInDim S80x1 ![0] bcast_S80_S80x1_0 v3))
      (transpose S80x80 [1, 0] A transposes_S80x80_S80x80_1_0)
  let v10 : FVec F S80x80 .f32 :=
    mulf v7 (broadcastInDim S80x80 ![0, 1] bcast_S1x80_S80x80_0_1 (broadcastInDim S1x80 ![1] bcast_S80_S1x80_1 v3))
  let v11 : FVec F S80x1024 .f32 := Host.dotGeneral dot_S80x300_S300x1024_S80x1024_1_0_0_1_n_n none v0 W1
  let v12 : FVec F S80x1024 .f32 := Host.dotGeneral dot_S80x80_S80x1024_S80x1024_1_0_0_1_n_n none v10 v11
  let v13 : FVec F S80x1024 .f32 :=
    select (cmpf .oge v12 (broadcastInDim S80x1024 ![] bcast_S_S80x1024 (constant S_ .f32 0x00000000#32))) v12
      (mulf (broadcastInDim S80x1024 ![] bcast_S_S80x1024 (id (constant S_ .f32 0x3E4CCCCD#32))) v12)
  let v14 : FVec F S80x2048 .f32 := Host.dotGeneral dot_S80x1024_S1024x2048_S80x2048_1_0_0_1_n_n none v13 W2
  Host.dotGeneral dot_S80x80_S80x2048_S80x2048_1_0_0_1_n_n none v10 v14

/-- The pooling tail as one function: img = feat · W_imgᵀ + b_img, cls = x · W_clsᵀ + b_cls, result img · clsᵀ. -/
def pool (feat : FVec F S1024x2048 .f32) (x : FVec F S80x2048 .f32) (wimg : FVec F S8000x2048 .f32)
    (bimg : FVec F S8000 .f32) (wcls : FVec F S8000x2048 .f32) (bcls : FVec F S8000 .f32) : FVec F S1024x80 .f32 :=
  let v16 : FVec F S2048x8000 .f32 := transpose S2048x8000 [1, 0] wimg transposes_S8000x2048_S2048x8000_1_0
  let v17 : FVec F S1024x8000 .f32 := Host.dotGeneral dot_S1024x2048_S2048x8000_S1024x8000_1_0_0_1_n_n none feat v16
  let v19 : FVec F S1024x8000 .f32 :=
    broadcastInDim S1024x8000 ![0, 1] bcast_S1x8000_S1024x8000_0_1 (broadcastInDim S1x8000 ![1] bcast_S8000_S1x8000_1 bimg)
  let v20 : FVec F S1024x8000 .f32 := addf v17 v19
  let v21 : FVec F S2048x8000 .f32 := transpose S2048x8000 [1, 0] wcls transposes_S8000x2048_S2048x8000_1_0
  let v22 : FVec F S80x8000 .f32 := Host.dotGeneral dot_S80x2048_S2048x8000_S80x8000_1_0_0_1_n_n none x v21
  let v24 : FVec F S80x8000 .f32 :=
    broadcastInDim S80x8000 ![0, 1] bcast_S1x8000_S80x8000_0_1 (broadcastInDim S1x8000 ![1] bcast_S8000_S1x8000_1 bcls)
  let v25 : FVec F S80x8000 .f32 := addf v22 v24
  let v26 : FVec F S8000x80 .f32 := transpose S8000x80 [1, 0] v25 transposes_S80x8000_S8000x80_1_0
  Host.dotGeneral dot_S1024x8000_S8000x80_S1024x80_1_0_0_1_n_n none v20 v26

end Cert.ReferenceIdeal.RefRun

end
-- ==== Proof.RefRun.lean ====
/-
  The reference program's run: its host operations in order (the rectifier's and the select's bodies listed at
  their call), and every execution ending with the result at the operations' composed value of the arguments — the
  graph-convolution branch, then the pooling tail — and the arguments unchanged.
-/
import proofs.«173789_j7868380086329_1_alg».proof.Proof.Gen.ReferenceIdeal
import proofs.«173789_j7868380086329_1_alg».proof.Proof.LibTypedRef
import proofs.«173789_j7868380086329_1_alg».proof.Proof.RefTerms
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-- The reference's host operations in order: sixteen of @main's, then the rectifier's six over the call's buffers (the
    zero and its broadcast, the comparison with it, the slope converted to its own type and broadcast, the product) and the
    select's one writing the call's result, then @main's remaining fourteen. -/
abbrev ops : List (HloOp τ sig (Elt F)) :=
  [ reshape main_arg1 main_v0 rfl shapeCasts_S1x80x300_S80x300,
    nullary main_cst (constant S_ .f32 0x00000000#32),
    binary main_arg2 main_cst main_v1 ((fun x v => Host.reduceAdd x v reducesTo_S80x80_S80_d1 h_S_) : (⟨S80x80, .f32⟩ : BufTy).Contents (Elt F) → (⟨S_, .f32⟩ : BufTy).Contents (Elt F) → (⟨S80, .f32⟩ : BufTy).Contents (Elt F)),
    nullary main_cst_0 (constant S_ .f32 0xBF000000#32),
    unary main_cst_0 main_v2 (broadcastInDim S80 ![] bcast_S_S80 : (⟨S_, .f32⟩ : BufTy).Contents (Elt F) → (⟨S80, .f32⟩ : BufTy).Contents (Elt F)),
    binary main_v1 main_v2 main_v3 (Host.powf : (⟨S80, .f32⟩ : BufTy).Contents (Elt F) → (⟨S80, .f32⟩ : BufTy).Contents (Elt F) → (⟨S80, .f32⟩ : BufTy).Contents (Elt F)),
    unary main_v3 main_v4 (broadcastInDim S80x1 ![0] bcast_S80_S80x1_0 : (⟨S80, .f32⟩ : BufTy).Contents (Elt F) → (⟨S80x1, .f32⟩ : BufTy).Contents (Elt F)),
    unary main_arg2 main_v5 ((transpose S80x80 [1, 0] · transposes_S80x80_S80x80_1_0) : (⟨S80x80, .f32⟩ : BufTy).Contents (Elt F) → (⟨S80x80, .f32⟩ : BufTy).Contents (Elt F)),
    unary main_v4 main_v6 (broadcastInDim S80x80 ![0, 1] bcast_S80x1_S80x80_0_1 : (⟨S80x1, .f32⟩ : BufTy).Contents (Elt F) → (⟨S80x80, .f32⟩ : BufTy).Contents (Elt F)),
    binary main_v6 main_v5 main_v7 (mulf : (⟨S80x80, .f32⟩ : BufTy).Contents (Elt F) → (⟨S80x80, .f32⟩ : BufTy).Contents (Elt F) → (⟨S80x80, .f32⟩ : BufTy).Contents (Elt F)),
    unary main_v3 main_v8 (broadcastInDim S1x80 ![1] bcast_S80_S1x80_1 : (⟨S80, .f32⟩ : BufTy).Contents (Elt F) → (⟨S1x80, .f32⟩ : BufTy).Contents (Elt F)),
    unary main_v8 main_v9 (broadcastInDim S80x80 ![0, 1] bcast_S1x80_S80x80_0_1 : (⟨S1x80, .f32⟩ : BufTy).Contents (Elt F) → (⟨S80x80, .f32⟩ : BufTy).Contents (Elt F)),
    binary main_v7 main_v9 main_v10 (mulf : (⟨S80x80, .f32⟩ : BufTy).Contents (Elt F) → (⟨S80x80, .f32⟩ : BufTy).Contents (Elt F) → (⟨S80x80, .f32⟩ : BufTy).Contents (Elt F)),
    binary main_v0 main_arg3 main_v11 ((fun l r => Host.dotGeneral dot_S80x300_S300x1024_S80x1024_1_0_0_1_n_n none l r) : (⟨S80x300, .f32⟩ : BufTy).Contents (Elt F) → (⟨S300x1024, .f32⟩ : BufTy).Contents (Elt F) → (⟨S80x1024, .f32⟩ : BufTy).Contents (Elt F)),
    binary main_v10 main_v11 main_v12 ((fun l r => Host.dotGeneral dot_S80x80_S80x1024_S80x1024_1_0_0_1_n_n none l r) : (⟨S80x80, .f32⟩ : BufTy).Contents (Elt F) → (⟨S80x1024, .f32⟩ : BufTy).Contents (Elt F) → (⟨S80x1024, .f32⟩ : BufTy).Contents (Elt F)),
    nullary main_cst_1 (constant S_ .f32 0x3E4CCCCD#32),
    TRef.nullary main_call0.cst (constant S_ .f32 0x00000000#32),
    TRef.unary main_call0.cst main_call0.v0 (broadcastInDim S80x1024 ![] bcast_S_S80x1024),
    TRef.binary (.of main_v12) main_call0.v0 main_call0.v1 (cmpf .oge),
    TRef.unary (.of main_cst_1) main_call0.v2 id,
    TRef.unary main_call0.v2 main_call0.v3 (broadcastInDim S80x1024 ![] bcast_S_S80x1024),
    TRef.binary main_call0.v3 (.of main_v12) main_call0.v4 mulf,
    TRef.ternary main_call0.v1 (.of main_v12) main_call0.v4 main_call0.call0.v0 select,
    binary main_v13 main_arg4 main_v14 ((fun l r => Host.dotGeneral dot_S80x1024_S1024x2048_S80x2048_1_0_0_1_n_n none l r) : (⟨S80x1024, .f32⟩ : BufTy).Contents (Elt F) → (⟨S1024x2048, .f32⟩ : BufTy).Contents (Elt F) → (⟨S80x2048, .f32⟩ : BufTy).Contents (Elt F)),
    binary main_v10 main_v14 main_v15 ((fun l r => Host.dotGeneral dot_S80x80_S80x2048_S80x2048_1_0_0_1_n_n none l r) : (⟨S80x80, .f32⟩ : BufTy).Contents (Elt F) → (⟨S80x2048, .f32⟩ : BufTy).Contents (Elt F) → (⟨S80x2048, .f32⟩ : BufTy).Contents (Elt F)),
    unary main_arg5 main_v16 ((transpose S2048x8000 [1, 0] · transposes_S8000x2048_S2048x8000_1_0) : (⟨S8000x2048, .f32⟩ : BufTy).Contents (Elt F) → (⟨S2048x8000, .f32⟩ : BufTy).Contents (Elt F)),
    binary main_arg0 main_v16 main_v17 ((fun l r => Host.dotGeneral dot_S1024x2048_S2048x8000_S1024x8000_1_0_0_1_n_n none l r) : (⟨S1024x2048, .f32⟩ : BufTy).Contents (Elt F) → (⟨S2048x8000, .f32⟩ : BufTy).Contents (Elt F) → (⟨S1024x8000, .f32⟩ : BufTy).Contents (Elt F)),
    unary main_arg6 main_v18 (broadcastInDim S1x8000 ![1] bcast_S8000_S1x8000_1 : (⟨S8000, .f32⟩ : BufTy).Contents (Elt F) → (⟨S1x8000, .f32⟩ : BufTy).Contents (Elt F)),
    unary main_v18 main_v19 (broadcastInDim S1024x8000 ![0, 1] bcast_S1x8000_S1024x8000_0_1 : (⟨S1x8000, .f32⟩ : BufTy).Contents (Elt F) → (⟨S1024x8000, .f32⟩ : BufTy).Contents (Elt F)),
    binary main_v17 main_v19 main_v20 (addf : (⟨S1024x8000, .f32⟩ : BufTy).Contents (Elt F) → (⟨S1024x8000, .f32⟩ : BufTy).Contents (Elt F) → (⟨S1024x8000, .f32⟩ : BufTy).Contents (Elt F)),
    unary main_arg7 main_v21 ((transpose S2048x8000 [1, 0] · transposes_S8000x2048_S2048x8000_1_0) : (⟨S8000x2048, .f32⟩ : BufTy).Contents (Elt F) → (⟨S2048x8000, .f32⟩ : BufTy).Contents (Elt F)),
    binary main_v15 main_v21 main_v22 ((fun l r => Host.dotGeneral dot_S80x2048_S2048x8000_S80x8000_1_0_0_1_n_n none l r) : (⟨S80x2048, .f32⟩ : BufTy).Contents (Elt F) → (⟨S2048x8000, .f32⟩ : BufTy).Contents (Elt F) → (⟨S80x8000, .f32⟩ : BufTy).Contents (Elt F)),
    unary main_arg8 main_v23 (broadcastInDim S1x8000 ![1] bcast_S8000_S1x8000_1 : (⟨S8000, .f32⟩ : BufTy).Contents (Elt F) → (⟨S1x8000, .f32⟩ : BufTy).Contents (Elt F)),
    unary main_v23 main_v24 (broadcastInDim S80x8000 ![0, 1] bcast_S1x8000_S80x8000_0_1 : (⟨S1x8000, .f32⟩ : BufTy).Contents (Elt F) → (⟨S80x8000, .f32⟩ : BufTy).Contents (Elt F)),
    binary main_v22 main_v24 main_v25 (addf : (⟨S80x8000, .f32⟩ : BufTy).Contents (Elt F) → (⟨S80x8000, .f32⟩ : BufTy).Contents (Elt F) → (⟨S80x8000, .f32⟩ : BufTy).Contents (Elt F)),
    unary main_v25 main_v26 ((transpose S8000x80 [1, 0] · transposes_S80x8000_S8000x80_1_0) : (⟨S80x8000, .f32⟩ : BufTy).Contents (Elt F) → (⟨S8000x80, .f32⟩ : BufTy).Contents (Elt F)),
    binary main_v20 main_v26 main_v27 ((fun l r => Host.dotGeneral dot_S1024x8000_S8000x80_S1024x80_1_0_0_1_n_n none l r) : (⟨S1024x8000, .f32⟩ : BufTy).Contents (Elt F) → (⟨S8000x80, .f32⟩ : BufTy).Contents (Elt F) → (⟨S1024x80, .f32⟩ : BufTy).Contents (Elt F)) ]

set_option maxRecDepth 1024 in
/-- @main is that straight line: the two functions' definitions unfolded at their calls and the records at their fields,
    both sides are one chain of steps once sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation names TensorCore buffers only. -/
theorem ops_sub : (ops : List (HloOp τ sig (Elt F))).Forall fun op => op.bufs ⊆ tcRefs τ sig :=
  ⟨reshape_bufs_sub .., nullary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., binary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    binary_bufs_sub .., unary_bufs_sub .., binary_bufs_sub .., unary_bufs_sub .., unary_bufs_sub .., binary_bufs_sub ..,
    unary_bufs_sub .., binary_bufs_sub .., unary_bufs_sub .., unary_bufs_sub .., binary_bufs_sub .., unary_bufs_sub ..,
    binary_bufs_sub ..⟩

-- The row sum and the power are kept folded while the two sides are compared: the equation never looks inside them.
attribute [local irreducible] Host.reduceAdd Host.powf in
/-- Every weakly fair execution of the reference terminates with its result at the pooling tail of the feature array, the
    graph-convolution branch and the four projection arguments, and the nine arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27)
          = pool (m ((c.tc : Thread nD τ).loc main_arg0))
              (gcn (m ((c.tc : Thread nD τ).loc main_arg1)) (m ((c.tc : Thread nD τ).loc main_arg2)) (m ((c.tc : Thread nD τ).loc main_arg3)) (m ((c.tc : Thread nD τ).loc main_arg4)))
              (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v27).trans (by
        after_results_simp
        simp only [Cert.LibTypedRef.ofBuf_toBuf]
        rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp)⟩)
    (run_seq scopedRefs_eq scopedSems_eq defs main (fun _ => ops) main_eq (fun _ => ops_sub) m ρ)

end Cert.ReferenceIdeal.RefRun

end
-- ==== Proof.RefValue.lean ====
/-
  The reference's pooling tail read at an entry: at the ideal values each dot_general is a plain sum, the transposes swap
  coordinates and the two-step bias broadcasts read the bias at the projection coordinate, so entry (p, q) is the pooled
  value of feature row p and class row q.
-/
import proofs.«173789_j7868380086329_1_alg».proof.Proof.RefTerms
import proofs.«173789_j7868380086329_1_alg».proof.Proof.PooledArray
import proofs.«173789_j7868380086329_1_alg».proof.Proof.LibMatmul
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx

/-! ## The three products at an entry -/

/-- The feature projection's product [1024, 2048] · [2048, 8000] at (p, j): the sum over the 2048 feature coordinates. -/
theorem dot_img (l : FVec Ideal S1024x2048 .f32) (r : FVec Ideal S2048x8000 .f32) (p : Fin 1024) (j : Fin 8000) :
    Host.dotGeneral (F := Ideal) dot_S1024x2048_S2048x8000_S1024x8000_1_0_0_1_n_n none l r (ix2 p j)
      = ∑ k : Fin 2048, (l (ix2 p k) : EReal) * (r (ix2 k j) : EReal) :=
  Cert.Lib.Matmul.dotGeneral_apply (A := 1024) (K := 2048) (C := 8000) none .single l r p j

/-- The class projection's product [80, 2048] · [2048, 8000] at (q, j): the sum over the 2048 feature coordinates. -/
theorem dot_cls (l : FVec Ideal S80x2048 .f32) (r : FVec Ideal S2048x8000 .f32) (q : Fin 80) (j : Fin 8000) :
    Host.dotGeneral (F := Ideal) dot_S80x2048_S2048x8000_S80x8000_1_0_0_1_n_n none l r (ix2 q j)
      = ∑ k : Fin 2048, (l (ix2 q k) : EReal) * (r (ix2 k j) : EReal) :=
  Cert.Lib.Matmul.dotGeneral_apply (A := 80) (K := 2048) (C := 8000) none .single l r q j

/-- The pooling product [1024, 8000] · [8000, 80] at (p, q): the sum over the 8000 projection coordinates. -/
theorem dot_pool (l : FVec Ideal S1024x8000 .f32) (r : FVec Ideal S8000x80 .f32) (p : Fin 1024) (q : Fin 80) :
    Host.dotGeneral (F := Ideal) dot_S1024x8000_S8000x80_S1024x80_1_0_0_1_n_n none l r (ix2 p q)
      = ∑ j : Fin 8000, (l (ix2 p j) : EReal) * (r (ix2 j q) : EReal) :=
  Cert.Lib.Matmul.dotGeneral_apply (A := 1024) (K := 8000) (C := 80) none .single l r p q

/-! ## The transposes at an entry -/

/-- A weight table [8000, 2048] transposed to [2048, 8000], at (k, j): the table at (j, k). -/
theorem tr_w (w : FVec Ideal S8000x2048 .f32) (k : Fin 2048) (j : Fin 8000) :
    transpose S2048x8000 [1, 0] w transposes_S8000x2048_S2048x8000_1_0 (ix2 k j) = w (ix2 j k) :=
  transpose_apply [1, 0] w transposes_S8000x2048_S2048x8000_1_0 (ix2 k j) (ix2 j k) (by
    intro b
    match b with
    | ⟨0, _⟩ => rfl
    | ⟨1, _⟩ => rfl)

/-- The class projection [80, 8000] transposed to [8000, 80], at (j, q): the projection at (q, j). -/
theorem tr_cls (c : FVec Ideal S80x8000 .f32) (j : Fin 8000) (q : Fin 80) :
    transpose S8000x80 [1, 0] c transposes_S80x8000_S8000x80_1_0 (ix2 j q) = c (ix2 q j) :=
  transpose_apply [1, 0] c transposes_S80x8000_S8000x80_1_0 (ix2 j q) (ix2 q j) (by
    intro b
    match b with
    | ⟨0, _⟩ => rfl
    | ⟨1, _⟩ => rfl)

/-! ## The bias broadcast at an entry -/

/-- A bias of 8000 entries broadcast first to one row [1, 8000] and then to R rows [R, 8000], at (p, j): the bias at j. -/
theorem bias2_apply {R : Nat} (h1 : S8000.BroadcastsInDim S1x8000 (![1] : Fin 1 → Fin S1x8000.rank))
    (h2 : S1x8000.BroadcastsInDim (⟨2, ![R, 8000]⟩ : Shape) (![0, 1] : Fin 2 → Fin 2))
    (b : FVec Ideal S8000 .f32) (p : Fin R) (j : Fin 8000) :
    broadcastInDim (⟨2, ![R, 8000]⟩ : Shape) ![0, 1] h2 (broadcastInDim S1x8000 ![1] h1 b) (ix2 p j) = b (ix1 j) := by
  rw [broadcastInDim_apply ![0, 1] h2 (broadcastInDim S1x8000 ![1] h1 b) (ix2 p j) (ix2 (0 : Fin 1) j) (by
    intro a
    match a with
    | ⟨0, _⟩ => rfl
    | ⟨1, _⟩ => rfl)]
  exact broadcastInDim_apply ![1] h1 b (ix2 (0 : Fin 1) j) (ix1 j) (by
    intro a
    match a with
    | ⟨0, _⟩ => rfl)

/-! ## The pooling tail -/

/-- The pooling tail is the pooled array. -/
theorem pool_eq (feat : FVec Ideal S1024x2048 .f32) (x : FVec Ideal S80x2048 .f32) (wimg : FVec Ideal S8000x2048 .f32)
    (bimg : FVec Ideal S8000 .f32) (wcls : FVec Ideal S8000x2048 .f32) (bcls : FVec Ideal S8000 .f32) :
    pool (F := Ideal) feat x wimg bimg wcls bcls = Cert.Bilinear.pooledArr feat x wimg bimg wcls bcls := by
  funext i
  obtain ⟨p, q, rfl⟩ : ∃ (p : Fin 1024) (q : Fin 80), i = ix2 p q := ⟨i 0, i 1, eq_ix2 i⟩
  rw [Cert.Bilinear.pooledArr_apply]
  unfold Cert.Bilinear.pooled RefRun.pool
  refine (dot_pool _ _ p q).trans ?_
  refine Finset.sum_congr rfl fun j _ => ?_
  rw [addf_apply, dot_img, bias2_apply, tr_cls, addf_apply, dot_cls, bias2_apply]
  congr 1
  · congr 1
    exact Finset.sum_congr rfl fun k _ => by rw [tr_w]
  · congr 1
    exact Finset.sum_congr rfl fun k _ => by rw [tr_w]

end Cert.ReferenceIdeal.RefValue

end
-- ==== Proof.lean ====
/-
  Bilinear pooling, blocked and padded, against the direct product.

  Both programs first compute the same graph-convolution branch x [80, 2048] from (inp, A, W_gc1, W_gc2): the same host
  operations in the same order with the same constants. The reference then forms img = feature · W_imgᵀ + b_img
  [1024, 8000], cls = x · W_clsᵀ + b_cls [80, 8000] and returns img · clsᵀ: entry (P, q) is the sum over the 8000
  projection coordinates j of (feature_P · W_img_j + b_img_j) · (x_q · W_cls_j + b_cls_j).

  The kernel continues the two tables and the two biases by 64 zero rows / entries (8000 -> 8064 = 21 · 384) and runs a
  2 × 21 grid: point (b, s) takes feature rows 512 b … 512 b + 511 and projection coordinates 384 s … 384 s + 383, forms
  the two projected blocks and adds their product into a [512, 80] accumulator that is zeroed at s = 0 and written to rows
  512 b … of the result at s = 20. At the ideal values the narrowing to bf16 is the identity and each matrix-unit product
  is a plain sum, so the accumulator after (b, s) is the sum of the addends of (b, 0) … (b, s); a padded coordinate
  contributes (0 + 0) · (0 + 0) = 0, a product with zero being zero on the extended reals whatever the other factor; and
  addition there is commutative and associative, so 21 partial sums of 384 terms, of which the last 64 vanish, are the
  sum of the first 8000 terms. No finiteness of the inputs is used.

  The three frames: the kernel's two are the generated frame certificates; the reference's is its run with the result
  dropped. The idealization rewrote nothing, so there is nothing to preserve.
-/
import proofs.«173789_j7868380086329_1_alg».proof.Defs
import proofs.«173789_j7868380086329_1_alg».proof.Proof.Gen.Kernel
import proofs.«173789_j7868380086329_1_alg».proof.Proof.Gen.Kernel.Skeleton
import proofs.«173789_j7868380086329_1_alg».proof.Proof.Gen.Kernel.Launch
import proofs.«173789_j7868380086329_1_alg».proof.Proof.Gen.Kernel.Points
import proofs.«173789_j7868380086329_1_alg».proof.Proof.Gen.Kernel.Frame
import proofs.«173789_j7868380086329_1_alg».proof.Proof.Gen.KernelIdeal
import proofs.«173789_j7868380086329_1_alg».proof.Proof.Gen.KernelIdeal.Skeleton
import proofs.«173789_j7868380086329_1_alg».proof.Proof.Gen.KernelIdeal.Launch
import proofs.«173789_j7868380086329_1_alg».proof.Proof.Gen.KernelIdeal.Points
import proofs.«173789_j7868380086329_1_alg».proof.Proof.Gen.KernelIdeal.Frame
import proofs.«173789_j7868380086329_1_alg».proof.Proof.Gen.ReferenceIdeal
import proofs.«173789_j7868380086329_1_alg».proof.Proof.Gen.Pre_finite_inputs
import proofs.«173789_j7868380086329_1_alg».proof.Proof.Final
import proofs.«173789_j7868380086329_1_alg».proof.Proof.RefRun
import proofs.«173789_j7868380086329_1_alg».proof.Proof.RefValue
import Idealize.ShloMosaic.Adequacy
import Idealize.ShloMosaic.Init

noncomputable section

namespace Cert.Proof

open Idealize.ShloMosaic Idealize.SL.Sem

/-- The two programs' graph-convolution chains are one function: the same operations on the same shapes. -/
theorem gcn_eq (inp : FVec Ideal Cert.KernelIdeal.S1x80x300 .f32) (A : FVec Ideal Cert.KernelIdeal.S80x80 .f32)
    (W1 : FVec Ideal Cert.KernelIdeal.S300x1024 .f32) (W2 : FVec Ideal Cert.KernelIdeal.S1024x2048 .f32) :
    Cert.ReferenceIdeal.RefRun.gcn (F := Ideal) inp A W1 W2 = Cert.KernelIdeal.HostPrefix.gcn (F := Ideal) inp A W1 W2 := rfl

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- At the ideal values the kernel's result array ends at the pooled array of its arguments, and the reference's at its
    pooling tail of arguments that agree, which is the same pooled array. -/
theorem algebraic : Cert.algebraic_KernelIdeal_ReferenceIdeal := by
  intro m ρ m' ρ' _ hagree
  refine ⟨fun c => Cert.KernelIdeal.Final.G m c, Cert.KernelIdeal.Final.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8⟩ := hagree c
  rw [a0, a1, a2, a3, a4, a5, a6, a7, a8, Cert.ReferenceIdeal.RefValue.pool_eq, gcn_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
